-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x128 : Shape := ⟨2, ![128, 128]⟩
abbrev S256x1 : Shape := ⟨2, ![256, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg5 : FVec F S256x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  main_v23

def fn {F : FTy → Type} [FloatOps F] (main_arg0 : FVec F S100000x128 .f32) (main_arg1 : FVec F S100000x128 .f32) (main_arg2 : IVec S2x500000 32) (main_arg3 : FVec F S128x128 .f32) (main_arg4 : FVec F S128x128 .f32) (main_arg5 : FVec F S256x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x500000 : Shape := ⟨2, ![2, 500000]⟩
abbrev S128x128 : Shape := ⟨2, ![128, 128]⟩
abbrev S256x1 : Shape := ⟨2, ![256, 1]⟩
abbrev S_ : Shape := ⟨0, ![]⟩
abbrev S6496x128 : Shape := ⟨2, ![6496, 128]⟩
abbrev S106496x128 : Shape := ⟨2, ![106496, 128]⟩
abbrev S8192x128 : Shape := ⟨2, ![8192, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S128x1 : Shape := ⟨2, ![128, 1]⟩
abbrev S128 : Shape := ⟨1, ![128]⟩
abbrev S1x128 : Shape := ⟨2, ![1, 128]⟩
abbrev S3808x128 : Shape := ⟨2, ![3808, 128]⟩
abbrev S503808x128 : Shape := ⟨2, ![503808, 128]⟩
abbrev S503808 : Shape := ⟨1, ![503808]⟩
abbrev S4096x128 : Shape := ⟨2, ![4096, 128]⟩
abbrev S4096 : Shape := ⟨1, ![4096]⟩
abbrev S4096x1 : Shape := ⟨2, ![4096, 1]⟩
abbrev S100000 : Shape := ⟨1, ![100000]⟩
abbrev S6496 : Shape := ⟨1, ![6496]⟩
abbrev S106496 : Shape := ⟨1, ![106496]⟩
abbrev S8192 : Shape := ⟨1, ![8192]⟩
abbrev S8192x1 : Shape := ⟨2, ![8192, 1]⟩

abbrev nBuf : Space → Nat
  | .hbm => 82
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x500000, .i32⟩
  | .hbm, ⟨3, _⟩ => ⟨S128x128, .f32⟩
  | .hbm, ⟨4, _⟩ => ⟨S128x128, .f32⟩
  | .hbm, ⟨5, _⟩ => ⟨S256x1, .f32⟩
  | .hbm, ⟨6, _⟩ => ⟨S_, .f32⟩
  | .hbm, ⟨7, _⟩ => ⟨S6496x128, .f32⟩
  | .hbm, ⟨8, _⟩ => ⟨S106496x128, .f32⟩
  | .hbm, ⟨9, _⟩ => ⟨S_, .f32⟩
  | .hbm, ⟨10, _⟩ => ⟨S6496x128, .f32⟩
  | .hbm, ⟨11, _⟩ => ⟨S106496x128, .f32⟩
  | .hbm, ⟨12, _⟩ => ⟨S106496x128, .f32⟩
  | .hbm, ⟨13, _⟩ => ⟨S106496x128, .f32⟩
  | .hbm, ⟨14, _⟩ => ⟨S100000x128, .f32⟩
  | .hbm, ⟨15, _⟩ => ⟨S100000x128, .f32⟩
  | .hbm, ⟨16, _⟩ => ⟨S1x500000, .i32⟩
  | .hbm, ⟨17, _⟩ => ⟨S500000, .i32⟩
  | .hbm, ⟨18, _⟩ => ⟨S1x500000, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S128x1, .f32⟩
  | .hbm, ⟨48, _⟩ => ⟨S128, .f32⟩
  | .hbm, ⟨49, _⟩ => ⟨S1x128, .f32⟩
  | .hbm, ⟨50, _⟩ => ⟨S128x1, .f32⟩
  | .hbm, ⟨51, _⟩ => ⟨S128, .f32⟩
  | .hbm, ⟨52, _⟩ => ⟨S1x128, .f32⟩
  | .hbm, ⟨53, _⟩ => ⟨S_, .f32⟩
  | .hbm, ⟨54, _⟩ => ⟨S3808x128, .f32⟩
  | .hbm, ⟨55, _⟩ => ⟨S503808x128, .f32⟩
  | .hbm, ⟨56, _⟩ => ⟨S_, .f32⟩
  | .hbm, ⟨57, _⟩ => ⟨S3808x128, .f32⟩
  | .hbm, ⟨58, _⟩ => ⟨S503808x128, .f32⟩
  | .hbm, ⟨59, _⟩ => ⟨S503808x128, .f32⟩
  | .hbm, ⟨60, _⟩ => ⟨S503808, .f32⟩
  | .hbm, ⟨61, _⟩ => ⟨S500000x128, .f32⟩
  | .hbm, ⟨62, _⟩ => ⟨S500000, .f32⟩
  | .hbm, ⟨63, _⟩ => ⟨S_, .f32⟩
  | .hbm, ⟨64, _⟩ => ⟨S100000x128, .f32⟩
  | .hbm, ⟨65, _⟩ => ⟨S500000x1, .i32⟩
  | .hbm, ⟨66, _⟩ => ⟨S100000x128, .f32⟩
  | .hbm, ⟨67, _⟩ => ⟨S_, .f32⟩
  | .hbm, ⟨68, _⟩ => ⟨S100000, .f32⟩
  | .hbm, ⟨69, _⟩ => ⟨S500000x1, .i32⟩
  | .hbm, ⟨70, _⟩ => ⟨S100000, .f32⟩
  | .hbm, ⟨71, _⟩ => ⟨S_, .f32⟩
  | .hbm, ⟨72, _⟩ => ⟨S6496x128, .f32⟩
  | .hbm, ⟨73, _⟩ => ⟨S106496x128, .f32⟩
  | .hbm, ⟨74, _⟩ => ⟨S_, .f32⟩
  | .hbm, ⟨75, _⟩ => ⟨S6496x128, .f32⟩
  | .hbm, ⟨76, _⟩ => ⟨S106496x128, .f32⟩
  | .hbm, ⟨77, _⟩ => ⟨S_, .f32⟩
  | .hbm, ⟨78, _⟩ => ⟨S6496, .f32⟩
  | .hbm, ⟨79, _⟩ => ⟨S106496, .f32⟩
  | .hbm, ⟨80, _⟩ => ⟨S106496x128, .f32⟩
  | .hbm, ⟨81, _⟩ => ⟨S100000x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S128x128, .f32⟩
  | .local _ .vmem, ⟨8, _⟩ => ⟨S8192x128, .f32⟩
  | .local _ .vmem, ⟨9, _⟩ => ⟨S8192x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1x128, .f32⟩
  | .local _ .vmem, ⟨15, _⟩ => ⟨S1x128, .f32⟩
  | .local _ .vmem, ⟨16, _⟩ => ⟨S4096x128, .f32⟩
  | .local _ .vmem, ⟨17, _⟩ => ⟨S4096x128, .f32⟩
  | .local _ .vmem, ⟨18, _⟩ => ⟨S4096, .f32⟩
  | .local _ .vmem, ⟨19, _⟩ => ⟨S4096, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S8192, .f32⟩
  | .local _ .vmem, ⟨25, _⟩ => ⟨S8192, .f32⟩
  | .local _ .vmem, ⟨26, _⟩ => ⟨S8192x128, .f32⟩
  | .local _ .vmem, ⟨27, _⟩ => ⟨S8192x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S6496x128 : S_.BroadcastsInDim S6496x128 (![] : Fin 0 → Fin S6496x128.rank)
  concatenates_S100000x128_S6496x128_S106496x128_d0 : Shape.Concatenates [S100000x128, S6496x128] S106496x128 0
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S106496x128_S100000x128_0_0 : S106496x128.Slices ![0, 0] S100000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S256x1_S128x1_0_0 : S256x1.Slices ![0, 0] S128x1
  shapeCasts_S128x1_S128 : S128x1.ShapeCasts S128
  shapeCasts_S128_S1x128 : S128.ShapeCasts S1x128
  slices_S256x1_S128x1_128_0 : S256x1.Slices ![128, 0] S128x1
  bcast_S_S3808x128 : S_.BroadcastsInDim S3808x128 (![] : Fin 0 → Fin S3808x128.rank)
  concatenates_S500000x128_S3808x128_S503808x128_d0 : Shape.Concatenates [S500000x128, S3808x128] S503808x128 0
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  broadcasts_S4096x1_S4096x128 : S4096x1.Broadcasts S4096x128
  shapeCasts_S4096x1_S4096 : S4096x1.ShapeCasts S4096
  inb_S4096_S4096_0 : ∀ a, (![0] : Fin 1 → Nat) a + S4096.size a ≤ S4096.size a
  h_S4096 : 0 < S4096.numel
  slices_S503808x128_S500000x128_0_0 : S503808x128.Slices ![0, 0] S500000x128
  slices_S503808_S500000_0 : S503808.Slices ![0] S500000
  bcast_S_S100000x128 : S_.BroadcastsInDim S100000x128 (![] : Fin 0 → Fin S100000x128.rank)
  bcast_S_S100000 : S_.BroadcastsInDim S100000 (![] : Fin 0 → Fin S100000.rank)
  bcast_S_S6496 : S_.BroadcastsInDim S6496 (![] : Fin 0 → Fin S6496.rank)
  concatenates_S100000_S6496_S106496_d0 : Shape.Concatenates [S100000, S6496] S106496 0
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  shapeCasts_S8192x1_S8192x1 : S8192x1.ShapeCasts S8192x1
  broadcasts_S8192x1_S8192x128 : S8192x1.Broadcasts S8192x128
  dot_S8192x128_S128x128_S8192x128_1_0_0_1_n_n_wf : DotDims.WF S8192x128 S128x128 S8192x128 [1] [0] [0] [1] [] []
  gather_S100000x128_S500000x1_S500000x128_1_0_n_n_0_1_1128_wf : GatherDims.WF S100000x128 S500000x1 S500000x128 [1] [0] [] [0] [] 1 ![1, 128]
  gather_S500000x128_S500000x1_S500000x128_1_0_n_n_0_1_1128_wf : GatherDims.WF S500000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S106496x128.size a
  hwx0_0 : ∀ i : grid0.Coords, EltTy.bits .f32 = 32 ∨ (Rect.block (s := S106496x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S106496x128.size a
  hwx0_2 : ∀ i : grid0.Coords, EltTy.bits .f32 = 32 ∨ (Rect.block (s := S106496x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S106496x128.size a
  hwx1_0 : ∀ i : grid1.Coords, EltTy.bits .f32 = 32 ∨ (Rect.block (s := S106496x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S106496x128.size a
  hwx1_2 : ∀ i : grid1.Coords, EltTy.bits .f32 = 32 ∨ (Rect.block (s := S106496x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S503808x128.size a
  hwx2_0 : ∀ i : grid2.Coords, EltTy.bits .f32 = 32 ∨ (Rect.block (s := S503808x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S503808x128.size a
  hwx2_1 : ∀ i : grid2.Coords, EltTy.bits .f32 = 32 ∨ (Rect.block (s := S503808x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S503808x128.size a
  hwx2_4 : ∀ i : grid2.Coords, EltTy.bits .f32 = 32 ∨ (Rect.block (s := S503808x128) S4096x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096.size a ≤ S503808.size a
  hwx2_5 : ∀ i : grid2.Coords, EltTy.bits .f32 = 32 ∨ (Rect.block (s := S503808) S4096.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S106496x128.size a
  hwx3_0 : ∀ i : grid3.Coords, EltTy.bits .f32 = 32 ∨ (Rect.block (s := S106496x128) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S106496x128.size a
  hwx3_1 : ∀ i : grid3.Coords, EltTy.bits .f32 = 32 ∨ (Rect.block (s := S106496x128) S8192x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192.size a ≤ S106496.size a
  hwx3_2 : ∀ i : grid3.Coords, EltTy.bits .f32 = 32 ∨ (Rect.block (s := S106496) S8192.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S106496x128.size a
  hwx3_3 : ∀ i : grid3.Coords, EltTy.bits .f32 = 32 ∨ (Rect.block (s := S106496x128) S8192x128.size (cc3_transform_3 i) (hinb3_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

abbrev win0_0 : Pipeline.Window sig grid0 :=
  Pipeline.Window.ofSpec (Memref.whole main_v1) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43_0) S4096x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v43_1) S4096.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S8192x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S8192.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S8192x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x128 : Shape := ⟨2, ![128, 128]⟩
abbrev S256x1 : Shape := ⟨2, ![256, 1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S100000x1 : Shape := ⟨2, ![100000, 1]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x500000, .i32⟩
  | .hbm, ⟨3, _⟩ => ⟨S128x128, .f32⟩
  | .hbm, ⟨4, _⟩ => ⟨S128x128, .f32⟩
  | .hbm, ⟨5, _⟩ => ⟨S256x1, .f32⟩
  | .hbm, ⟨6, _⟩ => ⟨S100000x128, .f32⟩
  | .hbm, ⟨7, _⟩ => ⟨S100000x128, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x128, .f32⟩
  | .hbm, ⟨39, _⟩ => ⟨S500000x256, .f32⟩
  | .hbm, ⟨40, _⟩ => ⟨S500000x1, .f32⟩
  | .hbm, ⟨41, _⟩ => ⟨S_, .f32⟩
  | .hbm, ⟨42, _⟩ => ⟨S500000x1, .f32⟩
  | .hbm, ⟨43, _⟩ => ⟨S500000x1, .i1⟩
  | .hbm, ⟨44, _⟩ => ⟨S_, .f32⟩
  | .hbm, ⟨45, _⟩ => ⟨S500000x1, .f32⟩
  | .hbm, ⟨46, _⟩ => ⟨S500000x1, .f32⟩
  | .hbm, ⟨47, _⟩ => ⟨S500000x1, .f32⟩
  | .hbm, ⟨48, _⟩ => ⟨S500000x1, .f32⟩
  | .hbm, ⟨49, _⟩ => ⟨S500000x128, .f32⟩
  | .hbm, ⟨50, _⟩ => ⟨S500000x128, .f32⟩
  | .hbm, ⟨51, _⟩ => ⟨S_, .f32⟩
  | .hbm, ⟨52, _⟩ => ⟨S100000x128, .f32⟩
  | .hbm, ⟨53, _⟩ => ⟨S500000x1, .i32⟩
  | .hbm, ⟨54, _⟩ => ⟨S100000x128, .f32⟩
  | .hbm, ⟨55, _⟩ => ⟨S_, .f32⟩
  | .hbm, ⟨56, _⟩ => ⟨S100000x1, .f32⟩
  | .hbm, ⟨57, _⟩ => ⟨S500000x1, .i32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  gather_S500000x128_S500000x1_S500000x128_1_0_n_n_0_1_1128_wf : GatherDims.WF S500000x128 S500000x1 S500000x128 [1] [0] [] [0] [] 1 ![1, 128]
  dot_S500000x256_S256x1_S500000x1_1_0_0_1_n_n_wf : DotDims.WF S500000x256 S256x1 S500000x1 [1] [0] [0] [1] [] []
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf

class Facts : Prop extends Facts₀ where

variable [Facts]
-- ==== Proof.Spec.lean ====
/-
  The functions both programs compute, written once at the extended reals and free of either program.

  A matrix product at (p, q) is the sum over k of x(p, k) * w(k, q).  An edge's score is the sum over the 128
  feature lanes of srow(k) * a_s(k) + trow(k) * a_t(k); its attention weight is the exponential of the leaky
  rectifier (slope 0.2, the float's own value) of that score.  An output entry is the larger of zero and
  t + num / (den + eps), with eps the float nearest one millionth read at its own value.
-/
import Idealize.ShloMosaic.PureOps.Ideal
import Idealize.ShloMosaic.Lib.ValueIdx

noncomputable section

namespace Spec

open Idealize.ShloMosaic Idealize.ShloMosaic.ValueIdx

/-- The plain matrix product of an [R, K] array with a [K, C] array. -/
def matG {R K C : Nat} (x : (⟨2, ![R, K]⟩ : Shape).Idx → EReal) (w : (⟨2, ![K, C]⟩ : Shape).Idx → EReal) :
    (⟨2, ![R, C]⟩ : Shape).Idx → EReal :=
  fun i => ∑ k : Fin K, x (ix2 (i 0) k) * w (ix2 k (i 1))

/-- An edge's score from its two feature rows and the two halves of the attention vector: over the feature lanes, the
    source row against a_s plus the target row against a_t. -/
def erow (srow trow aS aT : Fin 128 → EReal) : EReal :=
  ∑ k : Fin 128, (srow k * aS k + trow k * aT k)

/-- The leaky rectifier with slope 0.2 (the float's own value): e where e ≥ 0, else 0.2 * e. -/
def lrelu (e : EReal) : EReal :=
  Scalar.select (FloatOps.cmpf (F := Ideal) (φ := .f32) .oge e (Ideal.ofBits .f32 0x00000000#32)) e
    (Ideal.ofBits .f32 0x3E4CCCCD#32 * e)

/-- An edge's attention weight from its score. -/
def attS (e : EReal) : EReal := Ideal.exp (lrelu e)

/-- An output entry from the target's projection, the weighted sum of messages and the sum of weights. -/
def finS (t num den : EReal) : EReal :=
  max (t + Ideal.div num (den + Ideal.ofBits .f32 0x358637BD#32)) (Ideal.ofBits .f32 0x00000000#32)

end Spec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Region0.lean ====
/-
  The first projection's region: after its 13 grid points the [106496, 128] output array holds, at (p, q), the sum
  over k of the padded source rows' x(p, k) times Ws(k, q) — the plain matrix product of the two arrays the region
  finds, whatever they are.
-/
import proofs.«152401_j59854664237757_1_alg».proof.Proof.Gen.KernelIdeal.Frame
import proofs.«152401_j59854664237757_1_alg».proof.Proof.Spec
import proofs.«152401_j59854664237757_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/- The TensorCore's buffer contents when the region is entered (the parameter the generated region halves are stated at). -/
variable (V : (c : Dev nD) → (b : Ref sig .tc) → Buf (Elt Ideal) ((c : Thread nD τ).loc b))

/-- The body's payload at (p, q): the sum over the 128 lanes k of x(p, k) * w(k, q). -/
theorem pay0_apply (x : Vec Ideal S8192x128 .f32) (w : Vec Ideal S128x128 .f32) (p : Fin 8192) (q : Fin 128) :
    k0_pay1 x w (ix2 p q) = ∑ k : Fin 128, x (ix2 p k) * w (ix2 k q) := by
  unfold k0_pay1
  refine (Ideal.matmul_constant_zero_apply dot_S8192x128_S128x128_S8192x128_1_0_0_1_n_n none _ _ (ix2 p q)).trans ?_
  rw [shapeCast_self]
  exact PlainDot.sum_eq dot_S8192x128_S128x128_S8192x128_1_0_0_1_n_n rfl rfl rfl rfl rfl rfl x w p q

/-- The zero offsets, however spelt. -/
theorem zeros0 : (![0, 0] : Fin 2 → Nat) = fun _ => 0 := funext fun a => by fin_cases a <;> rfl

/-- The printed index maps over the 13 grid points: the row block of the left operand's window is the output's, below 13;
    every other block index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 12 :=
  (by decide +kernel : ∀ t : Fin grid0.N, _)

/-- Every one of the 13 row blocks is some point's. -/
theorem idx_onto0 : ∀ q0 : Fin 13, ∃ t : Fin cfg0.N, win0_2.index t (0 : Fin 2) = q0.val :=
  (by decide +kernel : ∀ q0 : Fin 13, ∃ t : Fin grid0.N, win0_2.index t (0 : Fin 2) = q0.val)

/-- One entry of the body's block against one entry of the product of two arrays: equal when the block's row reads the
    array's row and the right operand's column reads the array's column. -/
theorem point_eq0 (x : Vec Ideal S8192x128 .f32) (w : Vec Ideal S128x128 .f32)
    (a : S106496x128.Idx → EReal) (b : S128x128.Idx → EReal) (j : S8192x128.Idx) (i : S106496x128.Idx)
    (hx : ∀ k : Fin 128, x (ix2 (j 0) k) = a (ix2 (i 0) k))
    (hw : ∀ k : Fin 128, w (ix2 k (j 1)) = b (ix2 k (i 1))) :
    k0_pay1 x w j = Spec.matG (R := 106496) (K := 128) (C := 128) a b i := by
  refine (congrArg (k0_pay1 x w) (eq_ix2 j)).trans ((pay0_apply x w (j 0) (j 1)).trans ?_)
  exact Finset.sum_congr rfl fun k _ => by rw [hx k, hw k]

/-- What grid point t writes back is block t of the plain product of the two arrays the region finds: the block's rows
    are rows [8192 t, 8192 (t + 1)) of the left array, its right operand the whole right array. -/
theorem flushed0_eq (c : Dev nD) (t : Fin cfg0.N) :
    (dat0 V c).flushed 2 t = ((cfg0.win 2).blk t).view.read (Elt Ideal)
      (Spec.matG (R := 106496) (K := 128) (C := 128) (V c main_v1) (V c main_arg3)) := by
  show (cfg0.win 2).cut (grid0.coords t) ((dat0 V c).after 2 t) = _
  rw [after0_2]
  unfold out0_2
  rw [View.canon_unit_zero zeros0]
  simp only [View.ld_unit_zero (S := S8192x128) zeros0, View.ld_unit_zero (S := S128x128) zeros0]
  obtain ⟨e0, e1, e2, e3, e4, e5⟩ := idx_facts0 t
  funext j
  show k0_pay1 (iblk0 V c 0 t) (iblk0 V c 1 t) j
    = Spec.matG (R := 106496) (K := 128) (C := 128) (V c main_v1) (V c main_arg3) (((cfg0.win 2).blk t).view.emb j)
  refine point_eq0 _ _ _ _ j _ (fun k => ?_) (fun k => ?_)
  · -- row (j 0) of the left block is row 8192 t + (j 0) of the left array
    show (V c main_v1 : S106496x128.Idx → EReal) (((cfg0.win 0).blk t).view.emb (ix2 (j 0) k)) = _
    refine congrArg (V c main_v1 : S106496x128.Idx → EReal) ?_
    funext a; apply Fin.ext
    match a with
    | ⟨0, _⟩ =>
      show win0_0.index t (0 : Fin 2) * 8192 + 1 * (j 0).val = win0_2.index t (0 : Fin 2) * 8192 + 1 * (j 0).val
      omega
    | ⟨1, _⟩ =>
      show win0_0.index t (1 : Fin 2) * 128 + 1 * k.val = k.val
      omega
  · -- the right block is the whole right array, and the output block's column is the array's column
    show (V c main_arg3 : S128x128.Idx → EReal) (((cfg0.win 1).blk t).view.emb (ix2 k (j 1))) = _
    refine congrArg (V c main_arg3 : S128x128.Idx → EReal) ?_
    funext a; apply Fin.ext
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point t's block iff each coordinate is in the block's range on its axis. -/
theorem mem_blk0 (t : Fin cfg0.N) (i : S106496x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v4).slice (win0_2.rect t)).set ↔ _
  rw [View.set_slice_whole, Rect.mem_set_unit]
  exact Iff.rfl

/-- The 13 blocks of 8192 rows cover all 106496 = 13 * 8192 rows: row r is in the block of the point whose row block is
    r / 8192. -/
theorem rows_cover0 (i : S106496x128.Idx) :
    ∃ t : Fin cfg0.N, (cfg0.win 2).flush t = true ∧ i ∈ ((cfg0.win 2).blk t).view.set := by
  have hi0 : (i 0).val < 106496 := (i 0).isLt
  have hi1 : (i 1).val < 128 := (i 1).isLt
  obtain ⟨t, ht⟩ := idx_onto0 ⟨(i 0).val / 8192, by omega⟩
  have q0 : win0_2.index t (0 : Fin 2) = (i 0).val / 8192 := ht
  obtain ⟨e0, e1, e2, e3, e4, e5⟩ := idx_facts0 t
  refine ⟨t, flush0_2 t, ?_⟩
  rw [mem_blk0]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-- After region 0 its output array is the plain matrix product of its two input arrays. -/
theorem final0 (c : Dev nD) :
    (dat0 V c).arrAt 2 cfg0.N = Spec.matG (R := 106496) (K := 128) (C := 128) (V c main_v1) (V c main_arg3) :=
  (dat0 V c).arrAt_eq_of_cover 2 (Spec.matG (R := 106496) (K := 128) (C := 128) (V c main_v1) (V c main_arg3))
    (fun t _ => flushed0_eq V c t) rows_cover0

end Cert.KernelIdeal.RegionValue

end
-- ==== Proof.Region1.lean ====
/-
  The second projection's region: after its 13 grid points the [106496, 128] output array holds, at (p, q), the sum
  over k of the padded target rows' x(p, k) times Wt(k, q).
-/
import proofs.«152401_j59854664237757_1_alg».proof.Proof.Gen.KernelIdeal.Frame
import proofs.«152401_j59854664237757_1_alg».proof.Proof.Spec
import proofs.«152401_j59854664237757_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/- The TensorCore's buffer contents when the region is entered (the parameter the generated region halves are stated at). -/
variable (V : (c : Dev nD) → (b : Ref sig .tc) → Buf (Elt Ideal) ((c : Thread nD τ).loc b))

/-- The body's payload at (p, q): the sum over the 128 lanes k of x(p, k) * w(k, q). -/
theorem pay1_apply (x : Vec Ideal S8192x128 .f32) (w : Vec Ideal S128x128 .f32) (p : Fin 8192) (q : Fin 128) :
    k1_pay1 x w (ix2 p q) = ∑ k : Fin 128, x (ix2 p k) * w (ix2 k q) := by
  unfold k1_pay1
  refine (Ideal.matmul_constant_zero_apply dot_S8192x128_S128x128_S8192x128_1_0_0_1_n_n none _ _ (ix2 p q)).trans ?_
  rw [shapeCast_self]
  exact PlainDot.sum_eq dot_S8192x128_S128x128_S8192x128_1_0_0_1_n_n rfl rfl rfl rfl rfl rfl x w p q

/-- The zero offsets, however spelt. -/
theorem zeros1 : (![0, 0] : Fin 2 → Nat) = fun _ => 0 := funext fun a => by fin_cases a <;> rfl

/-- The printed index maps over the 13 grid points: the row block of the left operand's window is the output's, below 13;
    every other block index is 0. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 12 :=
  (by decide +kernel : ∀ t : Fin grid1.N, _)

/-- Every one of the 13 row blocks is some point's. -/
theorem idx_onto1 : ∀ q0 : Fin 13, ∃ t : Fin cfg1.N, win1_2.index t (0 : Fin 2) = q0.val :=
  (by decide +kernel : ∀ q0 : Fin 13, ∃ t : Fin grid1.N, win1_2.index t (0 : Fin 2) = q0.val)

/-- One entry of the body's block against one entry of the product of two arrays: equal when the block's row reads the
    array's row and the right operand's column reads the array's column. -/
theorem point_eq1 (x : Vec Ideal S8192x128 .f32) (w : Vec Ideal S128x128 .f32)
    (a : S106496x128.Idx → EReal) (b : S128x128.Idx → EReal) (j : S8192x128.Idx) (i : S106496x128.Idx)
    (hx : ∀ k : Fin 128, x (ix2 (j 0) k) = a (ix2 (i 0) k))
    (hw : ∀ k : Fin 128, w (ix2 k (j 1)) = b (ix2 k (i 1))) :
    k1_pay1 x w j = Spec.matG (R := 106496) (K := 128) (C := 128) a b i := by
  refine (congrArg (k1_pay1 x w) (eq_ix2 j)).trans ((pay1_apply x w (j 0) (j 1)).trans ?_)
  exact Finset.sum_congr rfl fun k _ => by rw [hx k, hw k]

/-- What grid point t writes back is block t of the plain product of the two arrays the region finds: the block's rows
    are rows [8192 t, 8192 (t + 1)) of the left array, its right operand the whole right array. -/
theorem flushed1_eq (c : Dev nD) (t : Fin cfg1.N) :
    (dat1 V c).flushed 2 t = ((cfg1.win 2).blk t).view.read (Elt Ideal)
      (Spec.matG (R := 106496) (K := 128) (C := 128) (V c main_v3) (V c main_arg4)) := by
  show (cfg1.win 2).cut (grid1.coords t) ((dat1 V c).after 2 t) = _
  rw [after1_2]
  unfold out1_2
  rw [View.canon_unit_zero zeros1]
  simp only [View.ld_unit_zero (S := S8192x128) zeros1, View.ld_unit_zero (S := S128x128) zeros1]
  obtain ⟨e0, e1, e2, e3, e4, e5⟩ := idx_facts1 t
  funext j
  show k1_pay1 (iblk1 V c 0 t) (iblk1 V c 1 t) j
    = Spec.matG (R := 106496) (K := 128) (C := 128) (V c main_v3) (V c main_arg4) (((cfg1.win 2).blk t).view.emb j)
  refine point_eq1 _ _ _ _ j _ (fun k => ?_) (fun k => ?_)
  · -- row (j 0) of the left block is row 8192 t + (j 0) of the left array
    show (V c main_v3 : S106496x128.Idx → EReal) (((cfg1.win 0).blk t).view.emb (ix2 (j 0) k)) = _
    refine congrArg (V c main_v3 : S106496x128.Idx → EReal) ?_
    funext a; apply Fin.ext
    match a with
    | ⟨0, _⟩ =>
      show win1_0.index t (0 : Fin 2) * 8192 + 1 * (j 0).val = win1_2.index t (0 : Fin 2) * 8192 + 1 * (j 0).val
      omega
    | ⟨1, _⟩ =>
      show win1_0.index t (1 : Fin 2) * 128 + 1 * k.val = k.val
      omega
  · -- the right block is the whole right array, and the output block's column is the array's column
    show (V c main_arg4 : S128x128.Idx → EReal) (((cfg1.win 1).blk t).view.emb (ix2 k (j 1))) = _
    refine congrArg (V c main_arg4 : S128x128.Idx → EReal) ?_
    funext a; apply Fin.ext
    match a with
    | ⟨0, _⟩ =>
      show win1_1.index t (0 : Fin 2) * 128 + 1 * k.val = k.val
      omega
    | ⟨1, _⟩ =>
      show win1_1.index t (1 : Fin 2) * 128 + 1 * (j 1).val = win1_2.index t (1 : Fin 2) * 128 + 1 * (j 1).val
      omega

/-- An index of the output array is in point t's block iff each coordinate is in the block's range on its axis. -/
theorem mem_blk1 (t : Fin cfg1.N) (i : S106496x128.Idx) :
    i ∈ ((cfg1.win 2).blk t).view.set ↔ ∀ a : Fin 2, win1_2.index t a * S8192x128.size a ≤ (i a).val
      ∧ (i a).val < win1_2.index t a * S8192x128.size a + S8192x128.size a := by
  show i ∈ ((View.whole main_v5).slice (win1_2.rect t)).set ↔ _
  rw [View.set_slice_whole, Rect.mem_set_unit]
  exact Iff.rfl

/-- The 13 blocks of 8192 rows cover all 106496 = 13 * 8192 rows: row r is in the block of the point whose row block is
    r / 8192. -/
theorem rows_cover1 (i : S106496x128.Idx) :
    ∃ t : Fin cfg1.N, (cfg1.win 2).flush t = true ∧ i ∈ ((cfg1.win 2).blk t).view.set := by
  have hi0 : (i 0).val < 106496 := (i 0).isLt
  have hi1 : (i 1).val < 128 := (i 1).isLt
  obtain ⟨t, ht⟩ := idx_onto1 ⟨(i 0).val / 8192, by omega⟩
  have q0 : win1_2.index t (0 : Fin 2) = (i 0).val / 8192 := ht
  obtain ⟨e0, e1, e2, e3, e4, e5⟩ := idx_facts1 t
  refine ⟨t, flush1_2 t, ?_⟩
  rw [mem_blk1]
  intro a
  match a with
  | ⟨0, _⟩ =>
    show win1_2.index t (0 : Fin 2) * 8192 ≤ (i 0).val ∧ (i 0).val < win1_2.index t (0 : Fin 2) * 8192 + 8192
    omega
  | ⟨1, _⟩ =>
    show win1_2.index t (1 : Fin 2) * 128 ≤ (i 1).val ∧ (i 1).val < win1_2.index t (1 : Fin 2) * 128 + 128
    omega

/-- After region 1 its output array is the plain matrix product of its two input arrays. -/
theorem final1 (c : Dev nD) :
    (dat1 V c).arrAt 2 cfg1.N = Spec.matG (R := 106496) (K := 128) (C := 128) (V c main_v3) (V c main_arg4) :=
  (dat1 V c).arrAt_eq_of_cover 2 (Spec.matG (R := 106496) (K := 128) (C := 128) (V c main_v3) (V c main_arg4))
    (fun t _ => flushed1_eq V c t) rows_cover1

end Cert.KernelIdeal.RegionValue

end
-- ==== Proof.HostA.lean ====
/-
  The idealized kernel's buffers after its first host stretch and its two projection regions.

  The first host stretch pads each feature array with 6496 zero rows; each projection region leaves the plain matrix
  product of the padded rows with its weight matrix; no later step writes the arguments.  The first 100000 rows of such
  a product are the product of the unpadded rows: row p < 100000 of the padded array is row p of the array itself.
-/
import proofs.«152401_j59854664237757_1_alg».proof.Proof.Gen.KernelIdeal.Frame
import proofs.«152401_j59854664237757_1_alg».proof.Proof.Gen.ReferenceIdeal.Read
import proofs.«152401_j59854664237757_1_alg».proof.Proof.Spec
import proofs.«152401_j59854664237757_1_alg».proof.Proof.Region0
import proofs.«152401_j59854664237757_1_alg».proof.Proof.Region1
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.KernelIdeal.RegionValue

/-- The all-zero rows the projections' inputs are padded with. -/
abbrev zpad : S6496x128.Idx → EReal := broadcastInDim S6496x128 ![] bcast_S_S6496x128 (constant (F := Ideal) S_ .f32 0x00000000#32)

theorem w1_v1 (c : Dev nD) :
    W1 m ρ c (Proc.devRef .tc main_v1) = concatenate S106496x128 0 [⟨S100000x128, m ((c : Thread nD τ).loc main_arg0)⟩, ⟨S6496x128, zpad⟩] concatenates_S100000x128_S6496x128_S106496x128_d0 := by
  show StableHlo.after hostOps0 (W0 m ρ c) (Proc.devRef .tc main_v1) = _
  after_results
theorem w1_v3 (c : Dev nD) :
    W1 m ρ c (Proc.devRef .tc main_v3) = concatenate S106496x128 0 [⟨S100000x128, m ((c : Thread nD τ).loc main_arg1)⟩, ⟨S6496x128, zpad⟩] concatenates_S100000x128_S6496x128_S106496x128_d0 := by
  show StableHlo.after hostOps0 (W0 m ρ c) (Proc.devRef .tc main_v3) = _
  after_results
theorem w1_arg2 (c : Dev nD) : W1 m ρ c (Proc.devRef .tc main_arg2) = m ((c : Thread nD τ).loc main_arg2) := by
  show StableHlo.after hostOps0 (W0 m ρ c) (Proc.devRef .tc main_arg2) = _
  after_results
theorem w1_arg3 (c : Dev nD) : W1 m ρ c (Proc.devRef .tc main_arg3) = m ((c : Thread nD τ).loc main_arg3) := by
  show StableHlo.after hostOps0 (W0 m ρ c) (Proc.devRef .tc main_arg3) = _
  after_results
theorem w1_arg4 (c : Dev nD) : W1 m ρ c (Proc.devRef .tc main_arg4) = m ((c : Thread nD τ).loc main_arg4) := by
  show StableHlo.after hostOps0 (W0 m ρ c) (Proc.devRef .tc main_arg4) = _
  after_results
theorem w1_arg5 (c : Dev nD) : W1 m ρ c (Proc.devRef .tc main_arg5) = m ((c : Thread nD τ).loc main_arg5) := by
  show StableHlo.after hostOps0 (W0 m ρ c) (Proc.devRef .tc main_arg5) = _
  after_results

/-- After the two projection regions: the first region's output, still the padded product. -/
theorem w3_v4 (c : Dev nD) :
    W3 m ρ c (Proc.devRef .tc main_v4) = Spec.matG (R := 106496) (K := 128) (C := 128)
      (concatenate S106496x128 0 [⟨S100000x128, m ((c : Thread nD τ).loc main_arg0)⟩, ⟨S6496x128, zpad⟩] concatenates_S100000x128_S6496x128_S106496x128_d0)
      (m ((c : Thread nD τ).loc main_arg3)) := by
  rw [W3_of_ne m ρ c main_v4 (by decide)]
  refine (W2_arr m ρ c 2).trans ?_
  rw [final0 (V1 m ρ) c]
  show Spec.matG (W1 m ρ c (Proc.devRef .tc main_v1)) (W1 m ρ c (Proc.devRef .tc main_arg3)) = _
  rw [w1_v1, w1_arg3]

theorem w3_v5 (c : Dev nD) :
    W3 m ρ c (Proc.devRef .tc main_v5) = Spec.matG (R := 106496) (K := 128) (C := 128)
      (concatenate S106496x128 0 [⟨S100000x128, m ((c : Thread nD τ).loc main_arg1)⟩, ⟨S6496x128, zpad⟩] concatenates_S100000x128_S6496x128_S106496x128_d0)
      (m ((c : Thread nD τ).loc main_arg4)) := by
  refine (W3_arr m ρ c 2).trans ?_
  rw [final1 (V2 m ρ) c]
  show Spec.matG (W2 m ρ c (Proc.devRef .tc main_v3)) (W2 m ρ c (Proc.devRef .tc main_arg4)) = _
  rw [W2_of_ne m ρ c main_v3 (by decide), W2_of_ne m ρ c main_arg4 (by decide), w1_v3, w1_arg4]

theorem w3_arg2 (c : Dev nD) : W3 m ρ c (Proc.devRef .tc main_arg2) = m ((c : Thread nD τ).loc main_arg2) := by
  rw [W3_of_ne m ρ c main_arg2 (by decide), W2_of_ne m ρ c main_arg2 (by decide), w1_arg2]
theorem w3_arg5 (c : Dev nD) : W3 m ρ c (Proc.devRef .tc main_arg5) = m ((c : Thread nD τ).loc main_arg5) := by
  rw [W3_of_ne m ρ c main_arg5 (by decide), W2_of_ne m ρ c main_arg5 (by decide), w1_arg5]

/-- The first 100000 rows of the product of the zero-padded rows with a matrix are the product of the rows with it. -/
theorem slice_matG_pad (x : S100000x128.Idx → EReal) (w : S128x128.Idx → EReal) :
    extractStridedSlice S100000x128 ![0, 0] (Spec.matG (R := 106496) (K := 128) (C := 128)
      (concatenate S106496x128 0 [⟨S100000x128, x⟩, ⟨S6496x128, zpad⟩] concatenates_S100000x128_S6496x128_S106496x128_d0) w)
      slices_S106496x128_S100000x128_0_0 = Spec.matG (R := 100000) (K := 128) (C := 128) x w := by
  funext i
  obtain ⟨p, q, rfl⟩ : ∃ (p : Fin 100000) (q : Fin 128), i = ix2 p q := ⟨i 0, i 1, eq_ix2 i⟩
  rw [extractStridedSlice_apply (![0, 0]) _ slices_S106496x128_S100000x128_0_0 (ix2 p q) (ix2 (⟨p.val, by omega⟩ : Fin 106496) q)
    (fun a => by match a with | ⟨0, _⟩ => simp | ⟨1, _⟩ => simp)]
  unfold Spec.matG
  refine Finset.sum_congr rfl fun k _ => ?_
  congr 1
  exact concatenate_pair_apply_left (t := S106496x128) (s₁ := S100000x128) (s₂ := S6496x128) (0 : Fin 2) x zpad concatenates_S100000x128_S6496x128_S106496x128_d0
    (ix2 (⟨p.val, by omega⟩ : Fin 106496) k) rfl (ix2 p k)
    (fun b => by match b with | ⟨0, _⟩ => rfl | ⟨1, _⟩ => rfl)

end Cert.KernelIdeal.HostValue
end
-- ==== Proof.RefSpec.lean ====
/-
  The reference's stages read as the program-free functions of Spec.

  The two projections are plain matrix products.  An edge's attention weight is the exponential of the leaky rectifier
  of its score, and the score — the 256-wide product of the row [s2(e, ·), t2(e, ·)] with the attention vector — is the
  sum over the 128 lanes of s2(e, k) * a(k) + t2(e, k) * a(128 + k): the concatenated row's first 128 entries are the
  source row and its last 128 the target row, and a sum over 256 positions splits into the sums over the two halves,
  which are then added lane by lane (addition of extended reals is commutative and associative, so no finiteness is
  needed).  The message is the source row scaled by the weight, and an output entry is the larger of zero and
  t + num / (den + eps).
-/
import proofs.«152401_j59854664237757_1_alg».proof.Proof.Gen.ReferenceIdeal.Read
import proofs.«152401_j59854664237757_1_alg».proof.Proof.Spec
import proofs.«152401_j59854664237757_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read
open Idealize.ShloMosaic Idealize.ShloMosaic.TcCoe Idealize.ShloMosaic.ValueIdx Idealize.SL.Sem

variable (x0 x1 : (⟨S100000x128, .f32⟩ : BufTy).Contents (Elt Ideal)) (x2 : (⟨S2x500000, .i32⟩ : BufTy).Contents (Elt Ideal))
  (x3 x4 : (⟨S128x128, .f32⟩ : BufTy).Contents (Elt Ideal)) (x5 : (⟨S256x1, .f32⟩ : BufTy).Contents (Elt Ideal))

/-- The left operand of the source projection at result index i and lane k is read at (i₀, k). -/
theorem lidx_v0 (i : S100000x128.Idx) (k : Fin 128) : lidx_main_v0 i k = ix2 (i 0) k :=
  funext fun a => Fin.ext (by match a with | ⟨0, _⟩ => rfl | ⟨1, _⟩ => rfl)

/-- The right operand of the source projection at result index i and lane k is read at (k, i₁). -/
theorem ridx_v0 (i : S100000x128.Idx) (k : Fin 128) : ridx_main_v0 i k = ix2 k (i 1) :=
  funext fun a => Fin.ext (by match a with | ⟨0, _⟩ => rfl | ⟨1, _⟩ => rfl)

/-- The source projection is the plain matrix product x_user · Ws. -/
theorem proj_s : val_main_v0 x0 x3 = Spec.matG (R := 100000) (K := 128) (C := 128) x0 x3 := by
  funext i
  rw [val_main_v0_apply]
  simp only [lidx_v0, ridx_v0]
  rfl

/-- The left operand of the target projection at result index i and lane k is read at (i₀, k). -/
theorem lidx_v1 (i : S100000x128.Idx) (k : Fin 128) : lidx_main_v1 i k = ix2 (i 0) k :=
  funext fun a => Fin.ext (by match a with | ⟨0, _⟩ => rfl | ⟨1, _⟩ => rfl)

/-- The right operand of the target projection at result index i and lane k is read at (k, i₁). -/
theorem ridx_v1 (i : S100000x128.Idx) (k : Fin 128) : ridx_main_v1 i k = ix2 k (i 1) :=
  funext fun a => Fin.ext (by match a with | ⟨0, _⟩ => rfl | ⟨1, _⟩ => rfl)

/-- The target projection is the plain matrix product x_item · Wt. -/
theorem proj_t : val_main_v1 x1 x4 = Spec.matG (R := 100000) (K := 128) (C := 128) x1 x4 := by
  funext i
  rw [val_main_v1_apply]
  simp only [lidx_v1, ridx_v1]
  rfl

/-- The score's left operand at edge e and position k is the concatenated row's entry (e, k). -/
theorem lidx_v28 (e : Fin 500000) (k : Fin 256) : lidx_main_v28 (ix2 e (0 : Fin 1)) k = ix2 e k :=
  funext fun a => Fin.ext (by match a with | ⟨0, _⟩ => rfl | ⟨1, _⟩ => rfl)

/-- The score's right operand at position k is the attention vector's entry (k, 0). -/
theorem ridx_v28 (e : Fin 500000) (k : Fin 256) : ridx_main_v28 (ix2 e (0 : Fin 1)) k = ix2 k (0 : Fin 1) :=
  funext fun a => Fin.ext (by match a with | ⟨0, _⟩ => rfl | ⟨1, _⟩ => rfl)

/-- The concatenated row's first 128 entries are the source row. -/
theorem cat_left (e : Fin 500000) (k : Fin 128) :
    val_main_v27 x0 x1 x2 x3 x4 (ix2 e (Fin.castAdd 128 k : Fin 256)) = val_main_v19 x0 x2 x3 (ix2 e k) := by
  unfold val_main_v27
  exact concatenate_pair_apply_left (t := S500000x256) (s₁ := S500000x128) (s₂ := S500000x128) _ _ _ _
    (ix2 e (Fin.castAdd 128 k : Fin 256)) rfl (ix2 e k)
    (fun b => by match b with | ⟨0, _⟩ => rfl | ⟨1, _⟩ => rfl)

/-- The concatenated row's last 128 entries are the target row. -/
theorem cat_right (e : Fin 500000) (k : Fin 128) :
    val_main_v27 x0 x1 x2 x3 x4 (ix2 e (Fin.natAdd 128 k : Fin 256)) = val_main_v26 x1 x2 x4 (ix2 e k) := by
  unfold val_main_v27
  exact concatenate_pair_apply_right (t := S500000x256) (s₁ := S500000x128) (s₂ := S500000x128) _ _ _ _
    (ix2 e (Fin.natAdd 128 k : Fin 256)) rfl rfl (ix2 e k)
    (fun b hb => by match b, hb with | ⟨0, _⟩, _ => rfl | ⟨1, _⟩, hb => exact absurd rfl hb)
    (by show k.val + 128 = 128 + k.val; omega)

/-- The score of edge e, the 256-wide product of its concatenated row with the attention vector, is the sum over the
    128 lanes of the source row against the vector's first half plus the target row against its second half: the
    sum over 256 positions splits into its two halves, which are added lane by lane. -/
theorem score_eq (e : Fin 500000) :
    val_main_v28 x0 x1 x2 x3 x4 x5 (ix2 e (0 : Fin 1))
      = Spec.erow (fun k => val_main_v19 x0 x2 x3 (ix2 e k)) (fun k => val_main_v26 x1 x2 x4 (ix2 e k))
          (fun k => x5 (ix2 (⟨k.val, by omega⟩ : Fin 256) (0 : Fin 1)))
          (fun k => x5 (ix2 (⟨128 + k.val, by omega⟩ : Fin 256) (0 : Fin 1))) := by
  rw [val_main_v28_apply]
  simp only [lidx_v28, ridx_v28]
  refine (Fin.sum_univ_add (a := 128) (b := 128)
    (fun k : Fin 256 => val_main_v27 x0 x1 x2 x3 x4 (ix2 e k) * x5 (ix2 k (0 : Fin 1)))).trans ?_
  simp only [cat_left, cat_right]
  unfold Spec.erow
  rw [Finset.sum_add_distrib]
  rfl

/-- Edge e's attention weight, from the twice-gathered source row, the gathered target row and the two halves of the
    attention vector. -/
def eatt (e : Fin 500000) : EReal :=
  Spec.attS (Spec.erow (fun k => val_main_v19 x0 x2 x3 (ix2 e k)) (fun k => val_main_v26 x1 x2 x4 (ix2 e k))
    (fun k => x5 (ix2 (⟨k.val, by omega⟩ : Fin 256) (0 : Fin 1))) (fun k => x5 (ix2 (⟨128 + k.val, by omega⟩ : Fin 256) (0 : Fin 1))))

/-- The reference's attention column at edge e. -/
theorem att_eq (e : Fin 500000) :
    val_main_v34 x0 x1 x2 x3 x4 x5 (ix2 e (0 : Fin 1)) = eatt x0 x1 x2 x3 x4 x5 e := by
  rw [val_main_v34_apply, val_main_v33_apply, val_main_v30_apply, val_main_v32_apply, val_main_v29_apply,
    val_main_v31_apply, val_main_cst_apply, val_main_cst_5_apply, score_eq]
  rfl

/-- The broadcast of the attention column along the feature axis reads it at (e, 0). -/
theorem idx_v35 (e : Fin 500000) (q : Fin 128) : idx_main_v35 (ix2 e q) = ix2 e (0 : Fin 1) :=
  funext fun a => Fin.ext (by match a with | ⟨0, _⟩ => rfl | ⟨1, _⟩ => rfl)

/-- The reference's message at (e, q): the source row's entry scaled by the edge's weight. -/
theorem msg_eq (e : Fin 500000) (q : Fin 128) :
    val_main_v36 x0 x1 x2 x3 x4 x5 (ix2 e q) = val_main_v19 x0 x2 x3 (ix2 e q) * eatt x0 x1 x2 x3 x4 x5 e := by
  rw [val_main_v36_apply, val_main_v35_apply, idx_v35, att_eq]
  rfl

/-- The broadcast of the denominator column along the feature axis reads it at (p, 0). -/
theorem idx_v45 (p : Fin 100000) (q : Fin 128) : idx_main_v45 (ix2 p q) = ix2 p (0 : Fin 1) :=
  funext fun a => Fin.ext (by match a with | ⟨0, _⟩ => rfl | ⟨1, _⟩ => rfl)

/-- The reference's result at (p, q) from the target projection, the summed messages and the summed weights. -/
theorem out_eq (p : Fin 100000) (q : Fin 128) :
    val_main_v48 x0 x1 x2 x3 x4 x5 (ix2 p q)
      = Spec.finS (val_main_v1 x1 x4 (ix2 p q)) (val_main_v39 x0 x1 x2 x3 x4 x5 (ix2 p q))
          (val_main_v42 x0 x1 x2 x3 x4 x5 (ix2 p (0 : Fin 1))) := by
  rw [val_main_v48_apply, val_main_v47_apply, val_main_v46_apply, val_main_v45_apply, idx_v45, val_main_v44_apply,
    val_main_v43_apply, val_main_cst_8_apply, val_main_call1_v0_apply, val_main_call1_cst_apply]
  rfl

end Cert.ReferenceIdeal.RefSpec

end
-- ==== Proof.HostB.lean ====
/-
  The idealized kernel's buffers after its second host stretch, read against the reference's stages.

  The stretch cuts the two projections back to their 100000 rows — which are the reference's two projections, a
  plain matrix product each —, normalises the edge indices and gathers exactly as the reference does (the same
  operations in the same order on the same index arrays), and pads the gathered rows with 3808 zero rows.  So the
  padded source and target arrays the edge region finds are the reference's twice-gathered source rows and gathered
  target rows over zero rows.
-/
import proofs.«152401_j59854664237757_1_alg».proof.Proof.Gen.KernelIdeal.Frame
import proofs.«152401_j59854664237757_1_alg».proof.Proof.Gen.ReferenceIdeal.Read
import proofs.«152401_j59854664237757_1_alg».proof.Proof.Spec
import proofs.«152401_j59854664237757_1_alg».proof.Proof.HostA
import proofs.«152401_j59854664237757_1_alg».proof.Proof.RefSpec
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read

/-- The six argument arrays as launched, at their literal types. -/
abbrev X0 (c : Dev nD) : S100000x128.Idx → EReal := m ((c : Thread nD τ).loc main_arg0)
abbrev X1 (c : Dev nD) : S100000x128.Idx → EReal := m ((c : Thread nD τ).loc main_arg1)
abbrev X2 (c : Dev nD) : (⟨S2x500000, .i32⟩ : BufTy).Contents (Elt Ideal) := m ((c : Thread nD τ).loc main_arg2)
abbrev X3 (c : Dev nD) : S128x128.Idx → EReal := m ((c : Thread nD τ).loc main_arg3)
abbrev X4 (c : Dev nD) : S128x128.Idx → EReal := m ((c : Thread nD τ).loc main_arg4)
abbrev X5 (c : Dev nD) : S256x1.Idx → EReal := m ((c : Thread nD τ).loc main_arg5)

/-- The zero rows the gathered arrays are padded with. -/
abbrev zpadE : S3808x128.Idx → EReal := broadcastInDim S3808x128 ![] bcast_S_S3808x128 (constant (F := Ideal) S_ .f32 0x00000000#32)

/-- The first region's output cut to 100000 rows is the reference's source projection. -/
theorem sliceS (c : Dev nD) :
    extractStridedSlice S100000x128 ![0, 0] (W3 m ρ c (Proc.devRef .tc main_v4)) slices_S106496x128_S100000x128_0_0
      = val_main_v0 (X0 m c) (X3 m c) := by
  rw [w3_v4]
  exact (slice_matG_pad _ _).trans (Cert.ReferenceIdeal.RefSpec.proj_s _ _).symm

/-- The second region's output cut to 100000 rows is the reference's target projection. -/
theorem sliceT (c : Dev nD) :
    extractStridedSlice S100000x128 ![0, 0] (W3 m ρ c (Proc.devRef .tc main_v5)) slices_S106496x128_S100000x128_0_0
      = val_main_v1 (X1 m c) (X4 m c) := by
  rw [w3_v5]
  exact (slice_matG_pad _ _).trans (Cert.ReferenceIdeal.RefSpec.proj_t _ _).symm

set_option maxHeartbeats 8000000 in
/-- The padded source rows the edge region finds: the reference's twice-gathered source rows over zero rows. -/
theorem w4_v40 (c : Dev nD) :
    W4 m ρ c (Proc.devRef .tc main_v40) = concatenate S503808x128 0 [⟨S500000x128, val_main_v19 (X0 m c) (X2 m c) (X3 m c)⟩, ⟨S3808x128, zpadE⟩] concatenates_S500000x128_S3808x128_S503808x128_d0 := by
  show StableHlo.after hostOps2 (W3 m ρ c) (Proc.devRef .tc main_v40) = _
  after_results
  rw [w3_arg2, sliceS]
  rfl

set_option maxHeartbeats 8000000 in
/-- The padded target rows the edge region finds: the reference's gathered target rows over zero rows. -/
theorem w4_v42 (c : Dev nD) :
    W4 m ρ c (Proc.devRef .tc main_v42) = concatenate S503808x128 0 [⟨S500000x128, val_main_v26 (X1 m c) (X2 m c) (X4 m c)⟩, ⟨S3808x128, zpadE⟩] concatenates_S500000x128_S3808x128_S503808x128_d0 := by
  show StableHlo.after hostOps2 (W3 m ρ c) (Proc.devRef .tc main_v42) = _
  after_results
  rw [w3_arg2, sliceT]
  rfl

end Cert.KernelIdeal.HostValue
end
-- ==== Proof.HostC.lean ====
/-
  The rest of what the second host stretch leaves: the two halves of the attention vector as [1, 128] rows, the target
  projection (kept for the finalize region) and the edges' target indices.
-/
import proofs.«152401_j59854664237757_1_alg».proof.Proof.Gen.KernelIdeal.Frame
import proofs.«152401_j59854664237757_1_alg».proof.Proof.Gen.ReferenceIdeal.Read
import proofs.«152401_j59854664237757_1_alg».proof.Proof.Spec
import proofs.«152401_j59854664237757_1_alg».proof.Proof.HostB
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read

/-- Rows [off, off + 128) of the attention vector, as a [1, 128] row. -/
abbrev aHalf (off : Fin 2 → Nat) (h : S256x1.Slices off S128x1) (a : S256x1.Idx → EReal) : S1x128.Idx → EReal :=
  shapeCast S1x128 (shapeCast S128 (extractStridedSlice S128x1 off a h) shapeCasts_S128x1_S128) shapeCasts_S128_S1x128

set_option maxHeartbeats 8000000 in
theorem w4_v35 (c : Dev nD) :
    W4 m ρ c (Proc.devRef .tc main_v35) = aHalf ![0, 0] slices_S256x1_S128x1_0_0 (X5 m c) := by
  show StableHlo.after hostOps2 (W3 m ρ c) (Proc.devRef .tc main_v35) = _
  after_results
  rw [w3_arg5]
  rfl

set_option maxHeartbeats 8000000 in
theorem w4_v38 (c : Dev nD) :
    W4 m ρ c (Proc.devRef .tc main_v38) = aHalf ![128, 0] slices_S256x1_S128x1_128_0 (X5 m c) := by
  show StableHlo.after hostOps2 (W3 m ρ c) (Proc.devRef .tc main_v38) = _
  after_results
  rw [w3_arg5]
  rfl

set_option maxHeartbeats 8000000 in
theorem w4_v7 (c : Dev nD) :
    W4 m ρ c (Proc.devRef .tc main_v7) = val_main_v1 (X1 m c) (X4 m c) := by
  show StableHlo.after hostOps2 (W3 m ρ c) (Proc.devRef .tc main_v7) = _
  after_results
  exact sliceT m ρ c

set_option maxHeartbeats 8000000 in
theorem w4_v11 (c : Dev nD) :
    W4 m ρ c (Proc.devRef .tc main_v11) = val_main_v5 (X2 m c) := by
  show StableHlo.after hostOps2 (W3 m ρ c) (Proc.devRef .tc main_v11) = _
  after_results
  rw [w3_arg2]
  rfl

end Cert.KernelIdeal.HostValue
end
-- ==== Proof.Region2.lean ====
/-
  The edge region: after its 123 grid points, row e of the message array is row e of the gathered source features
  scaled by the edge's attention weight, and entry e of the weight array is that weight — the exponential of the leaky
  rectifier of the row's score against the two halves of the attention vector.
-/
import proofs.«152401_j59854664237757_1_alg».proof.Proof.Gen.KernelIdeal.Frame
import proofs.«152401_j59854664237757_1_alg».proof.Proof.Spec
import proofs.«152401_j59854664237757_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/- The TensorCore's buffer contents when the region is entered (the parameter the generated region halves are stated at). -/
variable (V : (c : Dev nD) → (b : Ref sig .tc) → Buf (Elt Ideal) ((c : Thread nD τ).loc b))

/-- The gathered source rows, padded, as region 2 finds them. -/
abbrev srcA (c : Dev nD) : S503808x128.Idx → EReal := V c main_v40
/-- The gathered target rows, padded, as region 2 finds them. -/
abbrev tgtA (c : Dev nD) : S503808x128.Idx → EReal := V c main_v42
/-- The first half of the attention vector, as a [1, 128] row. -/
abbrev asA (c : Dev nD) : S1x128.Idx → EReal := V c main_v35
/-- The second half of the attention vector, as a [1, 128] row. -/
abbrev atA (c : Dev nD) : S1x128.Idx → EReal := V c main_v38

/-- Edge e's attention weight from the arrays region 2 finds. -/
def attAt (c : Dev nD) (e : Fin 503808) : EReal :=
  Spec.attS (Spec.erow (fun k => srcA V c (ix2 e k)) (fun k => tgtA V c (ix2 e k))
    (fun k => asA V c (ix2 (0 : Fin 1) k)) (fun k => atA V c (ix2 (0 : Fin 1) k)))

/-! ## The keepdims column forms read at an index -/

section Column
variable {α : Type}

/-- An [a] array cast to [a, 1] reads, at (i, u), the operand at i, whatever the unit coordinate u. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array cast to [a] reads, at i, the operand at (i, 0). -/
private theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An [a, 1] column broadcast to [a, b] reads, at (p, c), the column's entry at row p. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The body's payloads at an index -/

/-- The leaky rectifier and the exponential act entry by entry: at any index the weight column is the attention weight
    of the score column's entry there. -/
private theorem att_of_score (e : FVec Ideal S4096x1 .f32) (i : S4096x1.Idx) :
    exp (select (cmpf .oge e (broadcast S4096x1 (Scalar.ofBits .f32 0x00000000#32))) e
      (mulf (broadcast S4096x1 (Scalar.ofBits .f32 0x3E4CCCCD#32)) e)) i = Spec.attS (e i) := rfl

/-- The reduced lane axis put back: the index of the [4096, 128] block over row p at lane k. -/
private theorem lift_row (p : Fin 4096) (k : Fin 128) : reduces_S4096x128_S4096.lift (ix1 p) k = ix2 p k := by
  funext a
  apply Fin.ext
  match a with
  | ⟨0, _⟩ => rfl
  | ⟨1, _⟩ => rfl

/-- The weight column at row p: the attention weight of the row's score against the two halves of the attention vector. -/
theorem col2_apply (x0 x1 : Vec Ideal S4096x128 .f32) (x2 x3 : Vec Ideal S1x128 .f32) (p : Fin 4096) :
    k2_pay2 x0 x1 x2 x3 (ix2 p (0 : Fin 1))
      = Spec.attS (Spec.erow (fun k => x0 (ix2 p k)) (fun k => x1 (ix2 p k)) (fun k => x2 (ix2 (0 : Fin 1) k)) (fun k => x3 (ix2 (0 : Fin 1) k))) := by
  unfold k2_pay2
  refine (att_of_score _ _).trans (congrArg Spec.attS ?_)
  refine (shapeCast_a_a1_apply _ _ p 0).trans ?_
  refine (Ideal.multiReduction_add_single _ _ _ _ _ (ix1 p)).trans ?_
  unfold Spec.erow
  refine Finset.sum_congr rfl fun k _ => ?_
  rw [lift_row p k]
  have e0 : k2_pay1 x0 = x0 := shapeCast_self x0 _
  have e1 : shapeCast S4096x128 x1 shapeCasts_S4096x128_S4096x128 = x1 := shapeCast_self x1 _
  have e2 : shapeCast S1x128 (shapeCast S1x128 x2 shapeCasts_S1x128_S1x128) shapeCasts_S1x128_S1x128 = x2 :=
    (shapeCast_self _ _).trans (shapeCast_self x2 _)
  have e3 : shapeCast S1x128 (shapeCast S1x128 x3 shapeCasts_S1x128_S1x128) shapeCasts_S1x128_S1x128 = x3 :=
    (shapeCast_self _ _).trans (shapeCast_self x3 _)
  rw [e0, e1, e2, e3]
  show (x0 (ix2 p k) : EReal) * broadcastTo S4096x128 x2 broadcasts_S1x128_S4096x128 (ix2 p k)
      + (x1 (ix2 p k) : EReal) * broadcastTo S4096x128 x3 broadcasts_S1x128_S4096x128 (ix2 p k) = _
  rw [broadcastTo_1b_ab_apply x2 _ p k, broadcastTo_1b_ab_apply x3 _ p k]

/-- The message block at (p, q): the source block's entry there times row p's attention weight. -/
theorem msg2_apply (x0 x1 : Vec Ideal S4096x128 .f32) (x2 x3 : Vec Ideal S1x128 .f32) (p : Fin 4096) (q : Fin 128) :
    k2_pay3 x0 x1 x2 x3 (ix2 p q)
      = (x0 (ix2 p q) : EReal) * Spec.attS (Spec.erow (fun k => x0 (ix2 p k)) (fun k => x1 (ix2 p k)) (fun k => x2 (ix2 (0 : Fin 1) k)) (fun k => x3 (ix2 (0 : Fin 1) k))) := by
  unfold k2_pay3
  have e0 : k2_pay1 x0 = x0 := shapeCast_self x0 _
  rw [e0]
  show (x0 (ix2 p q) : EReal) * broadcastTo S4096x128 (k2_pay2 x0 x1 x2 x3) broadcasts_S4096x1_S4096x128 (ix2 p q) = _
  rw [broadcastTo_a1_ab_apply (k2_pay2 x0 x1 x2 x3) _ p q, col2_apply]

/-- The weight block at p: row p's attention weight. -/
theorem att2_apply (x0 x1 : Vec Ideal S4096x128 .f32) (x2 x3 : Vec Ideal S1x128 .f32) (p : Fin 4096) :
    k2_pay4 x0 x1 x2 x3 (ix1 p)
      = Spec.attS (Spec.erow (fun k => x0 (ix2 p k)) (fun k => x1 (ix2 p k)) (fun k => x2 (ix2 (0 : Fin 1) k)) (fun k => x3 (ix2 (0 : Fin 1) k))) := by
  unfold k2_pay4
  exact (shapeCast_a1_a_apply (k2_pay2 x0 x1 x2 x3) _ p).trans (col2_apply x0 x1 x2 x3 p)

/-! ## The printed index maps over the grid -/

private theorem zeros2 : (![0, 0] : Fin 2 → Nat) = fun _ => 0 := funext fun a => by fin_cases a <;> rfl
private theorem zeros1 : (![0] : Fin 1 → Nat) = fun _ => 0 := funext fun a => by fin_cases a <;> rfl

/-- Decided over the 123 grid points: the two row windows and the two output windows sit at block row t, lane block 0;
    the two attention rows are staged whole at every point. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 1) = t.val :=
  (by decide +kernel : ∀ t : Fin grid2.N, _)

/-! ## What a grid point writes back -/

/-- The message block at any index of the block, by coordinates. -/
private theorem msg_block (B0 B1 : Vec Ideal S4096x128 .f32) (B2 B3 : Vec Ideal S1x128 .f32) (j : S4096x128.Idx) :
    k2_pay3 B0 B1 B2 B3 j
      = (B0 j : EReal) * Spec.attS (Spec.erow (fun k => B0 (ix2 (j 0) k)) (fun k => B1 (ix2 (j 0) k)) (fun k => B2 (ix2 (0 : Fin 1) k)) (fun k => B3 (ix2 (0 : Fin 1) k))) := by
  obtain ⟨p, q, rfl⟩ : ∃ (p : Fin 4096) (q : Fin 128), j = ix2 p q := ⟨j 0, j 1, eq_ix2 j⟩
  exact msg2_apply B0 B1 B2 B3 p q

/-- At grid point t the message block's entry at block index j is the array's row 4096 t + j(0) of the source rows at lane
    j(1), times that row's attention weight: every input block is read where the output block's rectangle says. -/
private theorem msg_point (c : Dev nD) (t : Fin cfg2.N) (j : S4096x128.Idx) :
    k2_pay3 (iblk2 V c 0 t) (iblk2 V c 1 t) (iblk2 V c 2 t) (iblk2 V c 3 t) j
      = srcA V c (((cfg2.win 4).blk t).view.emb j) * attAt V c ((((cfg2.win 4).blk t).view.emb j) 0) := by
  obtain ⟨a0, a1, b0, b1, c0, c1, d0, d1, o0, o1, o5⟩ := idx_facts t
  refine (msg_block (iblk2 V c 0 t) (iblk2 V c 1 t) (iblk2 V c 2 t) (iblk2 V c 3 t) j).trans ?_
  have hj0 : (j 0).val < 4096 := (j 0).isLt
  have hj1 : (j 1).val < 128 := (j 1).isLt
  have hs : ((cfg2.win 0).blk t).view.emb j = ((cfg2.win 4).blk t).view.emb j := by
    funext a; apply Fin.ext
    match a with
    | ⟨0, _⟩ => show win2_0.index t (0 : Fin 2) * 4096 + 1 * (j 0).val = win2_4.index t (0 : Fin 2) * 4096 + 1 * (j 0).val; omega
    | ⟨1, _⟩ => show win2_0.index t (1 : Fin 2) * 128 + 1 * (j 1).val = win2_4.index t (1 : Fin 2) * 128 + 1 * (j 1).val; omega
  have hsr : ∀ k : Fin 128, ((cfg2.win 0).blk t).view.emb (ix2 (j 0) k) = ix2 ((((cfg2.win 4).blk t).view.emb j) 0) k := fun k => by
    funext a; apply Fin.ext
    match a with
    | ⟨0, _⟩ => show win2_0.index t (0 : Fin 2) * 4096 + 1 * (j 0).val = win2_4.index t (0 : Fin 2) * 4096 + 1 * (j 0).val; omega
    | ⟨1, _⟩ => show win2_0.index t (1 : Fin 2) * 128 + 1 * k.val = k.val; omega
  have htr : ∀ k : Fin 128, ((cfg2.win 1).blk t).view.emb (ix2 (j 0) k) = ix2 ((((cfg2.win 4).blk t).view.emb j) 0) k := fun k => by
    funext a; apply Fin.ext
    match a with
    | ⟨0, _⟩ => show win2_1.index t (0 : Fin 2) * 4096 + 1 * (j 0).val = win2_4.index t (0 : Fin 2) * 4096 + 1 * (j 0).val; omega
    | ⟨1, _⟩ => show win2_1.index t (1 : Fin 2) * 128 + 1 * k.val = k.val; omega
  have has : ∀ k : Fin 128, ((cfg2.win 2).blk t).view.emb (ix2 (0 : Fin 1) k) = ix2 (0 : Fin 1) k := fun k => by
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have hat : ∀ k : Fin 128, ((cfg2.win 3).blk t).view.emb (ix2 (0 : Fin 1) k) = ix2 (0 : Fin 1) k := fun k => by
    funext a; apply Fin.ext
    match a with
    | ⟨0, _⟩ => show win2_3.index t (0 : Fin 2) * 1 + 1 * 0 = 0; omega
    | ⟨1, _⟩ => show win2_3.index t (1 : Fin 2) * 128 + 1 * k.val = k.val; omega
  show srcA V c (((cfg2.win 0).blk t).view.emb j)
      * Spec.attS (Spec.erow (fun k => srcA V c (((cfg2.win 0).blk t).view.emb (ix2 (j 0) k)))
          (fun k => tgtA V c (((cfg2.win 1).blk t).view.emb (ix2 (j 0) k)))
          (fun k => asA V c (((cfg2.win 2).blk t).view.emb (ix2 (0 : Fin 1) k)))
          (fun k => atA V c (((cfg2.win 3).blk t).view.emb (ix2 (0 : Fin 1) k)))) = _
  unfold attAt
  rw [hs]
  simp only [hsr, htr, has, hat]
  rfl

/-- What point t writes back to the message array is block t of the source rows scaled by their attention weights. -/
theorem flushed2_msg (c : Dev nD) (t : Fin cfg2.N) :
    (dat2 V c).flushed 4 t
      = ((cfg2.win 4).blk t).view.read (Elt Ideal) (fun i : S503808x128.Idx => srcA V c i * attAt V c (i 0)) := by
  show (cfg2.win 4).cut (grid2.coords t) ((dat2 V c).after 4 t) = _
  rw [after2_4]
  unfold out2_4
  rw [View.canon_unit_zero zeros2]
  simp only [View.ld_unit_zero (S := S4096x128) zeros2, View.ld_unit_zero (S := S1x128) zeros2]
  funext j
  exact msg_point V c t j

/-- The weight block at any index of the block, by its coordinate. -/
private theorem att_block (B0 B1 : Vec Ideal S4096x128 .f32) (B2 B3 : Vec Ideal S1x128 .f32) (j : S4096.Idx) :
    k2_pay4 B0 B1 B2 B3 j
      = Spec.attS (Spec.erow (fun k => B0 (ix2 (j 0) k)) (fun k => B1 (ix2 (j 0) k)) (fun k => B2 (ix2 (0 : Fin 1) k)) (fun k => B3 (ix2 (0 : Fin 1) k))) := by
  obtain ⟨p, rfl⟩ : ∃ p : Fin 4096, j = ix1 p := ⟨j 0, eq_ix1 j⟩
  exact att2_apply B0 B1 B2 B3 p

/-- At grid point t the weight block's entry at block index j is the attention weight of the array's row 4096 t + j(0). -/
private theorem att_point (c : Dev nD) (t : Fin cfg2.N) (j : S4096.Idx) :
    k2_pay4 (iblk2 V c 0 t) (iblk2 V c 1 t) (iblk2 V c 2 t) (iblk2 V c 3 t) j
      = attAt V c ((((cfg2.win 5).blk t).view.emb j) 0) := by
  obtain ⟨a0, a1, b0, b1, c0, c1, d0, d1, o0, o1, o5⟩ := idx_facts t
  refine (att_block (iblk2 V c 0 t) (iblk2 V c 1 t) (iblk2 V c 2 t) (iblk2 V c 3 t) j).trans ?_
  have hj0 : (j 0).val < 4096 := (j 0).isLt
  have hsr : ∀ k : Fin 128, ((cfg2.win 0).blk t).view.emb (ix2 (j 0) k) = ix2 ((((cfg2.win 5).blk t).view.emb j) 0) k := fun k => by
    funext a; apply Fin.ext
    match a with
    | ⟨0, _⟩ => show win2_0.index t (0 : Fin 2) * 4096 + 1 * (j 0).val = win2_5.index t (0 : Fin 1) * 4096 + 1 * (j 0).val; omega
    | ⟨1, _⟩ => show win2_0.index t (1 : Fin 2) * 128 + 1 * k.val = k.val; omega
  have htr : ∀ k : Fin 128, ((cfg2.win 1).blk t).view.emb (ix2 (j 0) k) = ix2 ((((cfg2.win 5).blk t).view.emb j) 0) k := fun k => by
    funext a; apply Fin.ext
    match a with
    | ⟨0, _⟩ => show win2_1.index t (0 : Fin 2) * 4096 + 1 * (j 0).val = win2_5.index t (0 : Fin 1) * 4096 + 1 * (j 0).val; omega
    | ⟨1, _⟩ => show win2_1.index t (1 : Fin 2) * 128 + 1 * k.val = k.val; omega
  have has : ∀ k : Fin 128, ((cfg2.win 2).blk t).view.emb (ix2 (0 : Fin 1) k) = ix2 (0 : Fin 1) k := fun k => by
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have hat : ∀ k : Fin 128, ((cfg2.win 3).blk t).view.emb (ix2 (0 : Fin 1) k) = ix2 (0 : Fin 1) k := fun k => by
    funext a; apply Fin.ext
    match a with
    | ⟨0, _⟩ => show win2_3.index t (0 : Fin 2) * 1 + 1 * 0 = 0; omega
    | ⟨1, _⟩ => show win2_3.index t (1 : Fin 2) * 128 + 1 * k.val = k.val; omega
  show Spec.attS (Spec.erow (fun k => srcA V c (((cfg2.win 0).blk t).view.emb (ix2 (j 0) k)))
          (fun k => tgtA V c (((cfg2.win 1).blk t).view.emb (ix2 (j 0) k)))
          (fun k => asA V c (((cfg2.win 2).blk t).view.emb (ix2 (0 : Fin 1) k)))
          (fun k => atA V c (((cfg2.win 3).blk t).view.emb (ix2 (0 : Fin 1) k)))) = _
  unfold attAt
  simp only [hsr, htr, has, hat]
  rfl

/-- What point t writes back to the weight array is block t of the rows' attention weights. -/
theorem flushed2_att (c : Dev nD) (t : Fin cfg2.N) :
    (dat2 V c).flushed 5 t
      = ((cfg2.win 5).blk t).view.read (Elt Ideal) (fun i : S503808.Idx => attAt V c (i 0)) := by
  show (cfg2.win 5).cut (grid2.coords t) ((dat2 V c).after 5 t) = _
  rw [after2_5]
  unfold out2_5
  rw [View.canon_unit_zero zeros1]
  simp only [View.ld_unit_zero (S := S4096x128) zeros2, View.ld_unit_zero (S := S1x128) zeros2]
  funext j
  exact att_point V c t j

/-! ## The blocks tile both output arrays -/

/-- An index of the message array is in point t's block iff each coordinate is in the block's range on its axis. -/
private theorem mem_blk_msg (t : Fin cfg2.N) (i : S503808x128.Idx) :
    i ∈ ((cfg2.win 4).blk t).view.set ↔ ∀ a : Fin 2, win2_4.index t a * S4096x128.size a ≤ (i a).val ∧ (i a).val < win2_4.index t a * S4096x128.size a + S4096x128.size a := by
  show i ∈ ((View.whole main_v43_0).slice (win2_4.rect t)).set ↔ _
  rw [View.set_slice_whole, Rect.mem_set_unit]
  exact Iff.rfl

/-- An index of the weight array is in point t's block iff it is in the block's range. -/
private theorem mem_blk_att (t : Fin cfg2.N) (i : S503808.Idx) :
    i ∈ ((cfg2.win 5).blk t).view.set ↔ ∀ a : Fin 1, win2_5.index t a * S4096.size a ≤ (i a).val ∧ (i a).val < win2_5.index t a * S4096.size a + S4096.size a := by
  show i ∈ ((View.whole main_v43_1).slice (win2_5.rect t)).set ↔ _
  rw [View.set_slice_whole, Rect.mem_set_unit]
  exact Iff.rfl

/-- Row r of the message array is in the block of point r / 4096: 123 blocks of 4096 rows fill the 503808 rows. -/
private theorem cover_msg (i : S503808x128.Idx) :
    ∃ t : Fin cfg2.N, (cfg2.win 4).flush t = true ∧ i ∈ ((cfg2.win 4).blk t).view.set := by
  have hi0 : (i 0).val < 503808 := (i 0).isLt
  have hi1 : (i 1).val < 128 := (i 1).isLt
  have hN : cfg2.N = 123 := by decide
  obtain ⟨t, ht⟩ : ∃ t : Fin cfg2.N, t.val = (i 0).val / 4096 := ⟨⟨(i 0).val / 4096, by omega⟩, rfl⟩
  obtain ⟨-, -, -, -, -, -, -, -, o0, o1, -⟩ := idx_facts t
  refine ⟨t, flush2_4 t, ?_⟩
  rw [mem_blk_msg]
  intro a
  match a with
  | ⟨0, _⟩ => show win2_4.index t (0 : Fin 2) * 4096 ≤ (i 0).val ∧ (i 0).val < win2_4.index t (0 : Fin 2) * 4096 + 4096; omega
  | ⟨1, _⟩ => show win2_4.index t (1 : Fin 2) * 128 ≤ (i 1).val ∧ (i 1).val < win2_4.index t (1 : Fin 2) * 128 + 128; omega

/-- Entry r of the weight array is in the block of point r / 4096. -/
private theorem cover_att (i : S503808.Idx) :
    ∃ t : Fin cfg2.N, (cfg2.win 5).flush t = true ∧ i ∈ ((cfg2.win 5).blk t).view.set := by
  have hi0 : (i 0).val < 503808 := (i 0).isLt
  have hN : cfg2.N = 123 := by decide
  obtain ⟨t, ht⟩ : ∃ t : Fin cfg2.N, t.val = (i 0).val / 4096 := ⟨⟨(i 0).val / 4096, by omega⟩, rfl⟩
  obtain ⟨-, -, -, -, -, -, -, -, -, -, o5⟩ := idx_facts t
  refine ⟨t, flush2_5 t, ?_⟩
  rw [mem_blk_att]
  intro a
  match a with
  | ⟨0, _⟩ => show win2_5.index t (0 : Fin 1) * 4096 ≤ (i 0).val ∧ (i 0).val < win2_5.index t (0 : Fin 1) * 4096 + 4096; omega

/-! ## The two arrays after the region -/

/-- After region 2 the message array: s2(e, q) times edge e's attention weight. -/
theorem final2_msg (c : Dev nD) :
    (dat2 V c).arrAt 4 cfg2.N = (fun i : S503808x128.Idx => srcA V c i * attAt V c (i 0)) :=
  (dat2 V c).arrAt_eq_of_cover 4 _ (fun t _ => flushed2_msg V c t) cover_msg

/-- After region 2 the weight array: edge e's attention weight. -/
theorem final2_att (c : Dev nD) :
    (dat2 V c).arrAt 5 cfg2.N = (fun i : S503808.Idx => attAt V c (i 0)) :=
  (dat2 V c).arrAt_eq_of_cover 5 _ (fun t _ => flushed2_att V c t) cover_att

end Cert.KernelIdeal.RegionValue

end
-- ==== Proof.HostD.lean ====
/-
  The edge region's two outputs, cut back to the 500000 edges, are the reference's messages and attention weights.

  Row e < 500000 of a padded gathered array is row e of the gathered array; the two [1, 128] rows the region finds are
  the first and the last 128 entries of the attention vector.  So the weight the region computes for edge e is the
  reference's, and the message row is the reference's source row scaled by it.
-/
import proofs.«152401_j59854664237757_1_alg».proof.Proof.Gen.KernelIdeal.Frame
import proofs.«152401_j59854664237757_1_alg».proof.Proof.Gen.ReferenceIdeal.Read
import proofs.«152401_j59854664237757_1_alg».proof.Proof.Spec
import proofs.«152401_j59854664237757_1_alg».proof.Proof.HostC
import proofs.«152401_j59854664237757_1_alg».proof.Proof.Region2
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read Cert.KernelIdeal.RegionValue
open Cert.ReferenceIdeal.RefSpec (eatt)

/-- Entry k of a 128-row half of the attention vector laid out as a [1, 128] row is the vector's entry off + k. -/
theorem aHalf_apply (off : Fin 2 → Nat) (h : S256x1.Slices off S128x1) (a : S256x1.Idx → EReal) (k : Fin 128)
    (j : S256x1.Idx) (hj0 : (j 0).val = off 0 + k.val) (hj1 : (j 1).val = off 1 + 0) :
    aHalf off h a (ix2 (0 : Fin 1) k) = a j := by
  unfold aHalf
  rw [shapeCast_apply _ shapeCasts_S128_S1x128 (ix2 (0 : Fin 1) k) (ix1 k)
    (by rw [Shape.rowMajor_val_two, Shape.rowMajor_val_one]; show k.val = 0 * 128 + k.val; omega)]
  rw [shapeCast_apply _ shapeCasts_S128x1_S128 (ix1 k) (ix2 k (0 : Fin 1))
    (by rw [Shape.rowMajor_val_two, Shape.rowMajor_val_one]; show k.val * 1 + 0 = k.val; omega)]
  exact extractStridedSlice_apply off a h (ix2 k (0 : Fin 1)) j
    (fun b => by match b with | ⟨0, _⟩ => exact hj0 | ⟨1, _⟩ => exact hj1)

/-- Row e < 500000 of the padded source rows is the reference's twice-gathered source row. -/
theorem src_row (c : Dev nD) (e : Fin 500000) (k : Fin 128) :
    srcA (V4 m ρ) c (ix2 (⟨e.val, by omega⟩ : Fin 503808) k) = val_main_v19 (X0 m c) (X2 m c) (X3 m c) (ix2 e k) := by
  show W4 m ρ c (Proc.devRef .tc main_v40) (ix2 (⟨e.val, by omega⟩ : Fin 503808) k) = _
  rw [w4_v40]
  exact concatenate_pair_apply_left (t := S503808x128) (s₁ := S500000x128) (s₂ := S3808x128) (0 : Fin 2) _ zpadE
    concatenates_S500000x128_S3808x128_S503808x128_d0 (ix2 (⟨e.val, by omega⟩ : Fin 503808) k) rfl (ix2 e k)
    (fun b => by match b with | ⟨0, _⟩ => rfl | ⟨1, _⟩ => rfl)

/-- Row e < 500000 of the padded target rows is the reference's gathered target row. -/
theorem tgt_row (c : Dev nD) (e : Fin 500000) (k : Fin 128) :
    tgtA (V4 m ρ) c (ix2 (⟨e.val, by omega⟩ : Fin 503808) k) = val_main_v26 (X1 m c) (X2 m c) (X4 m c) (ix2 e k) := by
  show W4 m ρ c (Proc.devRef .tc main_v42) (ix2 (⟨e.val, by omega⟩ : Fin 503808) k) = _
  rw [w4_v42]
  exact concatenate_pair_apply_left (t := S503808x128) (s₁ := S500000x128) (s₂ := S3808x128) (0 : Fin 2) _ zpadE
    concatenates_S500000x128_S3808x128_S503808x128_d0 (ix2 (⟨e.val, by omega⟩ : Fin 503808) k) rfl (ix2 e k)
    (fun b => by match b with | ⟨0, _⟩ => rfl | ⟨1, _⟩ => rfl)

/-- The weight the edge region computes for edge e < 500000 is the reference's. -/
theorem attAt_eq (c : Dev nD) (e : Fin 500000) :
    attAt (V4 m ρ) c (⟨e.val, by omega⟩ : Fin 503808) = eatt (X0 m c) (X1 m c) (X2 m c) (X3 m c) (X4 m c) (X5 m c) e := by
  unfold attAt eatt
  have h1 : (fun k : Fin 128 => srcA (V4 m ρ) c (ix2 (⟨e.val, by omega⟩ : Fin 503808) k))
      = fun k => val_main_v19 (X0 m c) (X2 m c) (X3 m c) (ix2 e k) := funext fun k => src_row m ρ c e k
  have h2 : (fun k : Fin 128 => tgtA (V4 m ρ) c (ix2 (⟨e.val, by omega⟩ : Fin 503808) k))
      = fun k => val_main_v26 (X1 m c) (X2 m c) (X4 m c) (ix2 e k) := funext fun k => tgt_row m ρ c e k
  have h3 : (fun k : Fin 128 => asA (V4 m ρ) c (ix2 (0 : Fin 1) k))
      = fun k => X5 m c (ix2 (⟨k.val, by omega⟩ : Fin 256) (0 : Fin 1)) := funext fun k => by
    show W4 m ρ c (Proc.devRef .tc main_v35) (ix2 (0 : Fin 1) k) = _
    rw [w4_v35]
    exact aHalf_apply ![0, 0] _ _ k _ (by show k.val = 0 + k.val; omega) rfl
  have h4 : (fun k : Fin 128 => atA (V4 m ρ) c (ix2 (0 : Fin 1) k))
      = fun k => X5 m c (ix2 (⟨128 + k.val, by omega⟩ : Fin 256) (0 : Fin 1)) := funext fun k => by
    show W4 m ρ c (Proc.devRef .tc main_v38) (ix2 (0 : Fin 1) k) = _
    rw [w4_v38]
    exact aHalf_apply ![128, 0] _ _ k _ rfl rfl
  rw [h1, h2, h3, h4]

/-- The edge region's message array. -/
theorem w5_v43_0 (c : Dev nD) :
    W5 m ρ c (Proc.devRef .tc main_v43_0) = (fun i : S503808x128.Idx => srcA (V4 m ρ) c i * attAt (V4 m ρ) c (i 0)) :=
  (W5_arr m ρ c 4).trans (final2_msg (V4 m ρ) c)

/-- The edge region's weight array. -/
theorem w5_v43_1 (c : Dev nD) :
    W5 m ρ c (Proc.devRef .tc main_v43_1) = (fun i : S503808.Idx => attAt (V4 m ρ) c (i 0)) :=
  (W5_arr m ρ c 5).trans (final2_att (V4 m ρ) c)

theorem w5_v7 (c : Dev nD) : W5 m ρ c (Proc.devRef .tc main_v7) = val_main_v1 (X1 m c) (X4 m c) := by
  rw [W5_of_ne m ρ c main_v7 (by decide), w4_v7]
theorem w5_v11 (c : Dev nD) : W5 m ρ c (Proc.devRef .tc main_v11) = val_main_v5 (X2 m c) := by
  rw [W5_of_ne m ρ c main_v11 (by decide), w4_v11]

/-- The messages, cut to the 500000 edges, are the reference's. -/
theorem msg_slice (c : Dev nD) :
    extractStridedSlice S500000x128 ![0, 0] (W5 m ρ c (Proc.devRef .tc main_v43_0)) slices_S503808x128_S500000x128_0_0
      = val_main_v36 (X0 m c) (X1 m c) (X2 m c) (X3 m c) (X4 m c) (X5 m c) := by
  funext i
  obtain ⟨e, q, rfl⟩ : ∃ (e : Fin 500000) (q : Fin 128), i = ix2 e q := ⟨i 0, i 1, eq_ix2 i⟩
  rw [extractStridedSlice_apply (![0, 0]) _ slices_S503808x128_S500000x128_0_0 (ix2 e q) (ix2 (⟨e.val, by omega⟩ : Fin 503808) q)
    (fun a => by match a with | ⟨0, _⟩ => simp | ⟨1, _⟩ => simp)]
  rw [w5_v43_0]
  show srcA (V4 m ρ) c (ix2 (⟨e.val, by omega⟩ : Fin 503808) q) * attAt (V4 m ρ) c (⟨e.val, by omega⟩ : Fin 503808) = _
  rw [src_row, attAt_eq, Cert.ReferenceIdeal.RefSpec.msg_eq]

/-- The weights, cut to the 500000 edges, are the reference's attention column. -/
theorem att_slice (c : Dev nD) (e : Fin 500000) :
    extractStridedSlice S500000 ![0] (W5 m ρ c (Proc.devRef .tc main_v43_1)) slices_S503808_S500000_0 (ix1 e)
      = val_main_v34 (X0 m c) (X1 m c) (X2 m c) (X3 m c) (X4 m c) (X5 m c) (ix2 e (0 : Fin 1)) := by
  rw [extractStridedSlice_apply (![0]) _ slices_S503808_S500000_0 (ix1 e) (ix1 (⟨e.val, by omega⟩ : Fin 503808))
    (fun a => by match a with | ⟨0, _⟩ => simp)]
  rw [w5_v43_1]
  show attAt (V4 m ρ) c (⟨e.val, by omega⟩ : Fin 503808) = _
  rw [attAt_eq, Cert.ReferenceIdeal.RefSpec.att_eq]

end Cert.KernelIdeal.HostValue
end
-- ==== Proof.Region3.lean ====
/-
  The finalize region: after its 13 grid points the [106496, 128] output array holds, at (p, q), the larger of zero
  and t(p, q) + num(p, q) / (den(p) + eps).
-/
import proofs.«152401_j59854664237757_1_alg».proof.Proof.Gen.KernelIdeal.Frame
import proofs.«152401_j59854664237757_1_alg».proof.Proof.Spec
import proofs.«152401_j59854664237757_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

/- The TensorCore's buffer contents when the region is entered (the parameter the generated region halves are stated at). -/
variable (V : (c : Dev nD) → (b : Ref sig .tc) → Buf (Elt Ideal) ((c : Thread nD τ).loc b))

/-- A length-a vector cast to a column [a, 1] reads, at (i, u), the vector at i. -/
theorem cast_column_apply3 {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, q), the column at p. -/
theorem bcast_column_apply3 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's value at (p, q): the larger of zero and t(p, q) + num(p, q) / (den(p) + eps). -/
theorem pay_apply3 (x0 x1 : Vec Ideal S8192x128 .f32) (x2 : Vec Ideal S8192 .f32) (p : Fin 8192) (q : Fin 128) :
    k3_pay1 x0 x1 x2 (ix2 p q) = Spec.finS (x0 (ix2 p q)) (x1 (ix2 p q)) (x2 (ix1 p)) := by
  unfold k3_pay1
  simp only [shapeCast_self]
  refine (maximumf_apply _ _ _).trans ?_
  refine congrArg (fun z => max z _) ?_
  refine (addf_apply _ _ _).trans ?_
  refine congrArg (fun z => x0 (ix2 p q) + z) ?_
  refine (divf_apply _ _ _).trans ?_
  refine congrArg (fun z => Ideal.div (x1 (ix2 p q)) z) ?_
  refine (addf_apply _ _ _).trans ?_
  refine congrArg (fun z => z + _) ?_
  exact (bcast_column_apply3 _ _ p q).trans (cast_column_apply3 x2 _ p 0)

/-- The body's value at an index of the block, from the three blocks' entries there. -/
theorem pay_point3 (x0 x1 : Vec Ideal S8192x128 .f32) (x2 : Vec Ideal S8192 .f32) (j : S8192x128.Idx) (a b d : EReal)
    (h0 : x0 j = a) (h1 : x1 j = b) (h2 : x2 (ix1 (j 0)) = d) : k3_pay1 x0 x1 x2 j = Spec.finS a b d := by
  obtain ⟨p, q, rfl⟩ : ∃ p q, j = ix2 p q := ⟨j 0, j 1, eq_ix2 j⟩
  rw [pay_apply3, h0, h1]
  exact congrArg (Spec.finS a b) h2

/-- The zero offsets of the whole-block accesses, in rank 2 and rank 1. -/
theorem zeros2_3 : (![0, 0] : Fin 2 → Nat) = fun _ => 0 := funext fun a => by fin_cases a <;> rfl
theorem zeros1_3 : (![0] : Fin 1 → Nat) = fun _ => 0 := funext fun a => by fin_cases a; rfl

/-- The printed index maps, decided over the 13 grid points: the three inputs' blocks move with the output's block
    down the rows, no block moves across the columns, and the output's block row stays below 13. -/
theorem block_rows3 : ∀ t : Fin cfg3.N,
    win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 1) = win3_3.index t (0 : Fin 2)
    ∧ win3_3.index t (1 : Fin 2) = 0
    ∧ win3_3.index t (0 : Fin 2) ≤ 12 :=
  (by decide +kernel : ∀ t : Fin grid3.N, _)

/-- Every one of the 13 row blocks is some grid point's. -/
theorem block_rows_onto3 : ∀ q0 : Fin 13, ∃ t : Fin cfg3.N, win3_3.index t (0 : Fin 2) = q0.val :=
  (by decide +kernel : ∀ q0 : Fin 13, ∃ t : Fin grid3.N, win3_3.index t (0 : Fin 2) = q0.val)

/-- What grid point t writes back is block t of the entrywise function of the three input arrays: at row j of the
    block the two matrices are read at row 8192 * (t's block row) + j and the vector of sums at that same position. -/
theorem flushed_eq3 (c : Dev nD) (t : Fin cfg3.N) :
    (dat3 V c).flushed 3 t = ((cfg3.win 3).blk t).view.read (Elt Ideal)
      (fun i : S106496x128.Idx => Spec.finS (V c main_v53 i) (V c main_v55 i) (V c main_v57 (ix1 (i 0)))) := by
  show (cfg3.win 3).cut (grid3.coords t) ((dat3 V c).after 3 t) = _
  rw [after3_3]
  unfold out3_3
  rw [View.canon_unit_zero zeros2_3]
  simp only [View.ld_unit_zero (S := S8192x128) zeros2_3, View.ld_unit_zero (S := S8192) zeros1_3]
  obtain ⟨e0, e1, e2, e3, e4, e5, e6⟩ := block_rows3 t
  funext j
  show k3_pay1 (iblk3 V c 0 t) (iblk3 V c 1 t) (iblk3 V c 2 t) j
    = Spec.finS (V c main_v53 (((cfg3.win 3).blk t).view.emb j)) (V c main_v55 (((cfg3.win 3).blk t).view.emb j))
        (V c main_v57 (ix1 ((((cfg3.win 3).blk t).view.emb j) 0)))
  refine pay_point3 _ _ _ j _ _ _ ?_ ?_ ?_
  · show V c main_v53 (((cfg3.win 0).blk t).view.emb j) = V c main_v53 (((cfg3.win 3).blk t).view.emb j)
    refine congrArg (V c main_v53) (funext fun a => Fin.ext ?_)
    match a with
    | ⟨0, _⟩ => show win3_0.index t (0 : Fin 2) * 8192 + 1 * (j 0).val = win3_3.index t (0 : Fin 2) * 8192 + 1 * (j 0).val; omega
    | ⟨1, _⟩ => show win3_0.index t (1 : Fin 2) * 128 + 1 * (j 1).val = win3_3.index t (1 : Fin 2) * 128 + 1 * (j 1).val; omega
  · show V c main_v55 (((cfg3.win 1).blk t).view.emb j) = V c main_v55 (((cfg3.win 3).blk t).view.emb j)
    refine congrArg (V c main_v55) (funext fun a => Fin.ext ?_)
    match a with
    | ⟨0, _⟩ => show win3_1.index t (0 : Fin 2) * 8192 + 1 * (j 0).val = win3_3.index t (0 : Fin 2) * 8192 + 1 * (j 0).val; omega
    | ⟨1, _⟩ => show win3_1.index t (1 : Fin 2) * 128 + 1 * (j 1).val = win3_3.index t (1 : Fin 2) * 128 + 1 * (j 1).val; omega
  · show V c main_v57 (((cfg3.win 2).blk t).view.emb (ix1 (j 0))) = V c main_v57 (ix1 ((((cfg3.win 3).blk t).view.emb j) 0))
    refine congrArg (V c main_v57) (funext fun a => Fin.ext ?_)
    match a with
    | ⟨0, _⟩ => show win3_2.index t (0 : Fin 1) * 8192 + 1 * (j 0).val = win3_3.index t (0 : Fin 2) * 8192 + 1 * (j 0).val; omega

/-- An index of the array is in point t's block iff each coordinate is in the block's range on its axis. -/
theorem mem_blk3 (t : Fin cfg3.N) (i : S106496x128.Idx) :
    i ∈ ((cfg3.win 3).blk t).view.set ↔ ∀ a : Fin 2, win3_3.index t a * S8192x128.size a ≤ (i a).val ∧ (i a).val < win3_3.index t a * S8192x128.size a + S8192x128.size a := by
  show i ∈ ((View.whole main_v58).slice (win3_3.rect t)).set ↔ _
  rw [View.set_slice_whole, Rect.mem_set_unit]
  exact Iff.rfl

/-- Row r lies in the block of the point whose block row is r / 8192: the 13 blocks of 8192 rows fill the 106496 rows. -/
theorem covered3 (i : S106496x128.Idx) :
    ∃ t : Fin cfg3.N, (cfg3.win 3).flush t = true ∧ i ∈ ((cfg3.win 3).blk t).view.set := by
  have hi0 : (i 0).val < 106496 := (i 0).isLt
  have hi1 : (i 1).val < 128 := (i 1).isLt
  obtain ⟨t, ht⟩ := block_rows_onto3 ⟨(i 0).val / 8192, by omega⟩
  have q0 : win3_3.index t (0 : Fin 2) = (i 0).val / 8192 := ht
  obtain ⟨e0, e1, e2, e3, e4, e5, e6⟩ := block_rows3 t
  refine ⟨t, flush3_3 t, ?_⟩
  rw [mem_blk3]
  intro a
  match a with
  | ⟨0, _⟩ => show win3_3.index t (0 : Fin 2) * 8192 ≤ (i 0).val ∧ (i 0).val < win3_3.index t (0 : Fin 2) * 8192 + 8192; omega
  | ⟨1, _⟩ => show win3_3.index t (1 : Fin 2) * 128 ≤ (i 1).val ∧ (i 1).val < win3_3.index t (1 : Fin 2) * 128 + 128; omega

/-- After region 3 its output array, entry by entry. -/
theorem final3 (c : Dev nD) :
    (dat3 V c).arrAt 3 cfg3.N = (fun i : S106496x128.Idx =>
      Spec.finS (V c main_v53 i) (V c main_v55 i) (V c main_v57 (ix1 (i 0)))) :=
  (dat3 V c).arrAt_eq_of_cover 3 _ (fun t _ => flushed_eq3 V c t) covered3

end Cert.KernelIdeal.RegionValue

end
-- ==== Proof.LibScatterUnit.lean ====
/-
  A scatter-add of a vector is the scatter-add of the same numbers laid out as a one-column matrix.

  Scatter E updates into N slots, the slot of update e read (as a signed integer, not clamped) from an [E, 1] array of
  indices.  Written on rank-1 arrays (an [N] operand, [E] updates, no window axis) or on rank-2 arrays with a unit
  trailing axis (an [N, 1] operand, [E, 1] updates, that unit axis the window axis), the exact sums agree entry by entry:
  update e lands on slot n in the one exactly when update (e, 0) lands on slot (n, 0) in the other, so the two sums
  range over corresponding sets of updates, carried along the bijection e ↦ (e, 0).
-/
import Idealize.ShloMosaic.PureOps.Ideal
import Idealize.ShloMosaic.Lib.ValueIdx

noncomputable section

namespace ScatterUnit

open Idealize.ShloMosaic Idealize.ShloMosaic.ValueIdx

/-! ## Coordinates of an index built from its coordinates -/

/-- The one coordinate of a rank-1 index. -/
theorem ix1_val {n : Nat} (e : Fin n) (i : Fin (⟨1, ![n]⟩ : Shape).rank) : (ix1 e i).val = e.val := by
  match i with | ⟨0, _⟩ => rfl

/-- The first coordinate of a rank-2 index. -/
theorem ix2_val0 {n0 n1 : Nat} (a : Fin n0) (b : Fin n1) (i : Fin (⟨2, ![n0, n1]⟩ : Shape).rank) (hi : i.val = 0) :
    (ix2 a b i).val = a.val := by
  match i, hi with | ⟨0, _⟩, _ => rfl

/-- The second coordinate of a rank-2 index. -/
theorem ix2_val1 {n0 n1 : Nat} (a : Fin n0) (b : Fin n1) (i : Fin (⟨2, ![n0, n1]⟩ : Shape).rank) (hi : i.val = 1) :
    (ix2 a b i).val = b.val := by
  match i, hi with | ⟨1, _⟩, _ => rfl

/-! ## Landing on a given slot

  An update lands on slot i exactly when, on every operand axis, start plus window coordinate is i's coordinate:
  the range test then holds because i's coordinate is in range. -/

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    by_cases hc : ∀ a, 0 ≤ d.start j idx a + d.window j a ∧ d.start j idx a + d.window j a < s.size a
    · rw [dif_pos hc] at h
      have h1 := congrArg Fin.val (congrFun (Option.some.inj h) a)
      have h2 := (hc a).1
      simp only at h1
      omega
    · rw [dif_neg hc] at h
      cases h
  · intro h
    have hc : ∀ a, 0 ≤ d.start j idx a + d.window j a ∧ d.start j idx a + d.window j a < s.size a := by
      intro a
      have := (i a).isLt
      rw [h a]
      omega
    rw [dif_pos hc]
    congr 1
    funext a
    apply Fin.ext
    have := h a
    simp only
    omega

/-! ## The rank-1 form: one operand axis, inserted and scattered, no window axis -/

section Rank1

variable {N E : Nat} (wf1 : ScatterDims.WF ⟨1, ![N]⟩ ⟨2, ![E, 1]⟩ ⟨1, ![E]⟩ [] [0] [0] 1)

/-- Update e reads its start at position (e, 0) of the indices. -/
theorem siIdx1 (e : Fin E) (c : Fin ([(0 : Fin 1)].length)) :
    (ScatterDims.mk (s := ⟨1, ![N]⟩) (si := ⟨2, ![E, 1]⟩) (u := ⟨1, ![E]⟩) [] [0] [0] 1 wf1).siIdx (ix1 e) c
      = ix2 e (0 : Fin 1) := by
  funext b
  apply Fin.ext
  match b with
  | ⟨0, _⟩ =>
    unfold ScatterDims.siIdx
    rw [dif_neg (by simp)]
    unfold ScatterDims.siCoord
    exact ix1_val e _
  | ⟨1, _⟩ =>
    unfold ScatterDims.siIdx
    rw [dif_pos (by rfl)]
    have := c.isLt
    simp only [List.length_cons, List.length_nil] at this
    show c.val = 0
    omega

/-- The start on the one operand axis is the index read at (e, 0). -/
theorem start1 {w : Nat} (idx : IVec ⟨2, ![E, 1]⟩ w) (e : Fin E) (a : Fin (⟨1, ![N]⟩ : Shape).rank) :
    (ScatterDims.mk (s := ⟨1, ![N]⟩) (si := ⟨2, ![E, 1]⟩) (u := ⟨1, ![E]⟩) [] [0] [0] 1 wf1).start (ix1 e) idx a
      = (idx (ix2 e (0 : Fin 1))).toInt := by
  unfold ScatterDims.start
  have ha : a ∈ [(0 : Fin 1)] := by
    match a with | ⟨0, _⟩ => exact List.mem_singleton.2 rfl
  rw [dif_pos ha, siIdx1]

/-- The one operand axis is inserted: its window coordinate is 0. -/
theorem window1 (e : Fin E) (a : Fin (⟨1, ![N]⟩ : Shape).rank) :
    (ScatterDims.mk (s := ⟨1, ![N]⟩) (si := ⟨2, ![E, 1]⟩) (u := ⟨1, ![E]⟩) [] [0] [0] 1 wf1).window (ix1 e) a = 0 := by
  unfold ScatterDims.window
  rw [dif_neg]
  match a with
  | ⟨0, _⟩ => simp [ScatterDims.sKept, Shape.kept]

/-- Update e lands on slot n exactly when the index read at (e, 0) is n. -/
theorem lands1 {w : Nat} (idx : IVec ⟨2, ![E, 1]⟩ w) (e : Fin E) (n : Fin N) :
    (ScatterDims.mk (s := ⟨1, ![N]⟩) (si := ⟨2, ![E, 1]⟩) (u := ⟨1, ![E]⟩) [] [0] [0] 1 wf1).resultIdx? (ix1 e) idx
        = some (ix1 n) ↔ (idx (ix2 e (0 : Fin 1))).toInt = (n.val : Int) := by
  rw [resultIdx?_eq_some_iff]
  constructor
  · intro h
    have := h ⟨0, Nat.zero_lt_one⟩
    rw [start1, window1] at this
    simpa using this
  · intro h a
    rw [start1, window1, ix1_val, h]
    simp

end Rank1

/-! ## The rank-2 form: axis 0 inserted and scattered, the unit axis 1 kept and fed by the updates' unit axis -/

section Rank2

variable {N E : Nat} (wf2 : ScatterDims.WF ⟨2, ![N, 1]⟩ ⟨2, ![E, 1]⟩ ⟨2, ![E, 1]⟩ [1] [0] [0] 1)

/-- Update (e, 0) reads its start at position (e, 0) of the indices. -/
theorem siIdx2 (e : Fin E) (c : Fin ([(0 : Fin 2)].length)) :
    (ScatterDims.mk (s := ⟨2, ![N, 1]⟩) (si := ⟨2, ![E, 1]⟩) (u := ⟨2, ![E, 1]⟩) [1] [0] [0] 1 wf2).siIdx
        (ix2 e (0 : Fin 1)) c
      = ix2 e (0 : Fin 1) := by
  funext b
  apply Fin.ext
  match b with
  | ⟨0, _⟩ =>
    unfold ScatterDims.siIdx
    rw [dif_neg (by simp)]
    unfold ScatterDims.siCoord
    refine ix2_val0 e (0 : Fin 1) _ ?_
    rfl
  | ⟨1, _⟩ =>
    unfold ScatterDims.siIdx
    rw [dif_pos (by rfl)]
    have := c.isLt
    simp only [List.length_cons, List.length_nil] at this
    show c.val = 0
    omega

/-- On axis 0 the start is the index read at (e, 0). -/
theorem start2_0 {w : Nat} (idx : IVec ⟨2, ![E, 1]⟩ w) (e : Fin E) (h0 : 0 < (⟨2, ![N, 1]⟩ : Shape).rank) :
    (ScatterDims.mk (s := ⟨2, ![N, 1]⟩) (si := ⟨2, ![E, 1]⟩) (u := ⟨2, ![E, 1]⟩) [1] [0] [0] 1 wf2).start
        (ix2 e (0 : Fin 1)) idx ⟨0, h0⟩
      = (idx (ix2 e (0 : Fin 1))).toInt := by
  unfold ScatterDims.start
  have ha : (⟨0, h0⟩ : Fin 2) ∈ [(0 : Fin 2)] := List.mem_singleton.2 rfl
  rw [dif_pos ha, siIdx2]

/-- Axis 1 is not scattered: its start is 0. -/
theorem start2_1 {w : Nat} (idx : IVec ⟨2, ![E, 1]⟩ w) (e : Fin E) (h1 : 1 < (⟨2, ![N, 1]⟩ : Shape).rank) :
    (ScatterDims.mk (s := ⟨2, ![N, 1]⟩) (si := ⟨2, ![E, 1]⟩) (u := ⟨2, ![E, 1]⟩) [1] [0] [0] 1 wf2).start
        (ix2 e (0 : Fin 1)) idx ⟨1, h1⟩
      = 0 := by
  unfold ScatterDims.start
  have ha : (⟨1, h1⟩ : Fin 2) ∉ [(0 : Fin 2)] := by
    intro h
    exact absurd (congrArg Fin.val (List.mem_singleton.1 h)) Nat.one_ne_zero
  rw [dif_neg ha]

/-- Axis 0 is inserted: its window coordinate is 0. -/
theorem window2_0 (e : Fin E) (h0 : 0 < (⟨2, ![N, 1]⟩ : Shape).rank) :
    (ScatterDims.mk (s := ⟨2, ![N, 1]⟩) (si := ⟨2, ![E, 1]⟩) (u := ⟨2, ![E, 1]⟩) [1] [0] [0] 1 wf2).window
        (ix2 e (0 : Fin 1)) ⟨0, h0⟩ = 0 := by
  unfold ScatterDims.window
  rw [dif_neg]
  simp [ScatterDims.sKept, Shape.kept]

/-- On the unit axis 1 the window coordinate is the update's second coordinate, 0. -/
theorem window2_1 (e : Fin E) (h1 : 1 < (⟨2, ![N, 1]⟩ : Shape).rank) :
    (ScatterDims.mk (s := ⟨2, ![N, 1]⟩) (si := ⟨2, ![E, 1]⟩) (u := ⟨2, ![E, 1]⟩) [1] [0] [0] 1 wf2).window
        (ix2 e (0 : Fin 1)) ⟨1, h1⟩ = 0 := by
  unfold ScatterDims.window
  split
  · refine ix2_val1 e (0 : Fin 1) _ ?_
    rfl
  · rfl

/-- Update (e, 0) lands on slot (n, 0) exactly when the index read at (e, 0) is n. -/
theorem lands2 {w : Nat} (idx : IVec ⟨2, ![E, 1]⟩ w) (e : Fin E) (n : Fin N) :
    (ScatterDims.mk (s := ⟨2, ![N, 1]⟩) (si := ⟨2, ![E, 1]⟩) (u := ⟨2, ![E, 1]⟩) [1] [0] [0] 1 wf2).resultIdx?
        (ix2 e (0 : Fin 1)) idx
        = some (ix2 n (0 : Fin 1)) ↔ (idx (ix2 e (0 : Fin 1))).toInt = (n.val : Int) := by
  rw [resultIdx?_eq_some_iff]
  constructor
  · intro h
    have := h ⟨0, Nat.zero_lt_two⟩
    rw [start2_0, window2_0] at this
    simpa using this
  · intro h a
    match a with
    | ⟨0, _⟩ =>
      rw [start2_0, window2_0, h]
      simp
    | ⟨1, _⟩ =>
      rw [start2_1, window2_1]
      simp

end Rank2

/-! ## The two scatter-adds -/

/-- An index into an [E, 1] array has second coordinate 0. -/
theorem eq_ix2_zero {E : Nat} (k : (⟨2, ![E, 1]⟩ : Shape).Idx) : k = ix2 (k 0) (0 : Fin 1) := by
  funext a
  match a with
  | ⟨0, _⟩ => rfl
  | ⟨1, h⟩ =>
    apply Fin.ext
    have h1 : (k ⟨1, h⟩).val < 1 := (k ⟨1, h⟩).isLt
    show (k ⟨1, h⟩).val = 0
    omega

/-- The rank-1 scatter-add at slot n is the rank-2, unit-column scatter-add at slot (n, 0), when the operands and the
    updates hold the same numbers. -/
theorem hostScatterAdd_unit_column {N E w : Nat}
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0])
    (h1s : d1.scatterDimsToOperandDims = [0]) (h1v : d1.indexVectorDim = 1)
    (h2u : d2.updateWindowDims = [1]) (h2i : d2.insertedWindowDims = [0])
    (h2s : d2.scatterDimsToOperandDims = [0]) (h2v : d2.indexVectorDim = 1)
    (x1 : (⟨1, ![N]⟩ : Shape).Idx → EReal) (x2 : (⟨2, ![N, 1]⟩ : Shape).Idx → EReal)
    (hx : ∀ n : Fin N, x1 (ix1 n) = x2 (ix2 n (0 : Fin 1)))
    (idx : IVec ⟨2, ![E, 1]⟩ w)
    (u1 : (⟨1, ![E]⟩ : Shape).Idx → EReal) (u2 : (⟨2, ![E, 1]⟩ : Shape).Idx → EReal)
    (hu : ∀ e : Fin E, u1 (ix1 e) = u2 (ix2 e (0 : Fin 1))) (n : Fin N) :
    Ideal.hostScatterAdd d1 x1 idx u1 (ix1 n) = Ideal.hostScatterAdd d2 x2 idx u2 (ix2 n (0 : Fin 1)) := by
  obtain ⟨uw1, iw1, sd1, iv1, wf1⟩ := d1
  obtain ⟨uw2, iw2, sd2, iv2, wf2⟩ := d2
  dsimp only at h1u h1i h1s h1v h2u h2i h2s h2v
  subst h1u h1i h1s h1v h2u h2i h2s h2v
  unfold Ideal.hostScatterAdd
  rw [hx n]
  congr 1
  -- the updates landing on n correspond to the updates landing on (n, 0) along e ↦ (e, 0)
  refine Finset.sum_bij (fun j _ => ix2 (j 0) (0 : Fin 1)) ?_ ?_ ?_ ?_
  · intro j hj
    rw [Finset.mem_filter] at hj ⊢
    have hj2 := hj.2
    rw [eq_ix1 j] at hj2
    exact ⟨Finset.mem_univ _, (lands2 wf2 idx (j 0) n).2 ((lands1 wf1 idx (j 0) n).1 hj2)⟩
  · intro j1 _ j2 _ h
    have h0 : j1 0 = j2 0 := congrFun h ⟨0, Nat.zero_lt_two⟩
    rw [eq_ix1 j1, eq_ix1 j2, h0]
  · intro k hk
    rw [Finset.mem_filter] at hk
    have hk2 := hk.2
    rw [eq_ix2_zero k] at hk2
    refine ⟨ix1 (k 0), ?_, ?_⟩
    · rw [Finset.mem_filter]
      exact ⟨Finset.mem_univ _, (lands1 wf1 idx (k 0) n).2 ((lands2 wf2 idx (k 0) n).1 hk2)⟩
    · exact (eq_ix2_zero k).symm
  · intro j _
    rw [eq_ix1 j]
    exact hu (j 0)

end ScatterUnit

end
-- ==== Proof.Bridge.lean ====
/-
  The idealized kernel's result array is the reference's result, as functions of the six arguments.

  After the edge region the third host stretch scatters the messages and the weights by target index — the messages
  with the very scatter the reference uses, on equal arrays; the weights as a rank-1 vector where the reference keeps a
  unit column, which gives the same sums slot by slot — and pads the target projection, the summed messages and the
  summed weights with zero rows.  The finalize region computes max(0, t + num / (den + eps)) entry by entry, and the
  last host step keeps its first 100000 rows, where the padded arrays are the unpadded ones.
-/
import proofs.«152401_j59854664237757_1_alg».proof.Proof.Gen.KernelIdeal.Frame
import proofs.«152401_j59854664237757_1_alg».proof.Proof.Gen.ReferenceIdeal.Read
import proofs.«152401_j59854664237757_1_alg».proof.Proof.Spec
import proofs.«152401_j59854664237757_1_alg».proof.Proof.HostD
import proofs.«152401_j59854664237757_1_alg».proof.Proof.Region3
import proofs.«152401_j59854664237757_1_alg».proof.Proof.LibScatterUnit
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

open Cert.ReferenceIdeal.Read Cert.KernelIdeal.RegionValue

abbrev zpad1 : S6496.Idx → EReal := broadcastInDim S6496 ![] bcast_S_S6496 (constant (F := Ideal) S_ .f32 0x00000000#32)

theorem w6_v53 (c : Dev nD) :
    W6 m ρ c (Proc.devRef .tc main_v53) = concatenate S106496x128 0 [⟨S100000x128, W5 m ρ c (Proc.devRef .tc main_v7)⟩, ⟨S6496x128, zpad⟩] concatenates_S100000x128_S6496x128_S106496x128_d0 := by
  show StableHlo.after hostOps3 (W5 m ρ c) (Proc.devRef .tc main_v53) = _
  after_results

theorem w6_v55 (c : Dev nD) :
    W6 m ρ c (Proc.devRef .tc main_v55) = concatenate S106496x128 0 [⟨S100000x128,
      Host.scatterAdd scatter_S100000x128_S500000x1_S500000x128_1_0_0_1
        (broadcastInDim S100000x128 ![] bcast_S_S100000x128 (constant (F := Ideal) S_ .f32 0x00000000#32))
        (broadcastInDim S500000x1 ![0] bcast_S500000_S500000x1_0 (W5 m ρ c (Proc.devRef .tc main_v11)))
        (extractStridedSlice S500000x128 ![0, 0] (W5 m ρ c (Proc.devRef .tc main_v43_0)) slices_S503808x128_S500000x128_0_0)⟩,
      ⟨S6496x128, zpad⟩] concatenates_S100000x128_S6496x128_S106496x128_d0 := by
  show StableHlo.after hostOps3 (W5 m ρ c) (Proc.devRef .tc main_v55) = _
  after_results

theorem w6_v57 (c : Dev nD) :
    W6 m ρ c (Proc.devRef .tc main_v57) = concatenate S106496 0 [⟨S100000,
      Host.scatterAdd scatter_S100000_S500000x1_S500000_n_0_0_1
        (broadcastInDim S100000 ![] bcast_S_S100000 (constant (F := Ideal) S_ .f32 0x00000000#32))
        (broadcastInDim S500000x1 ![0] bcast_S500000_S500000x1_0 (W5 m ρ c (Proc.devRef .tc main_v11)))
        (extractStridedSlice S500000 ![0] (W5 m ρ c (Proc.devRef .tc main_v43_1)) slices_S503808_S500000_0)⟩,
      ⟨S6496, zpad1⟩] concatenates_S100000_S6496_S106496_d0 := by
  show StableHlo.after hostOps3 (W5 m ρ c) (Proc.devRef .tc main_v57) = _
  after_results

theorem w8_v59 (c : Dev nD) :
    W8 m ρ c (Proc.devRef .tc main_v59) = extractStridedSlice S100000x128 ![0, 0] (W7 m ρ c (Proc.devRef .tc main_v58)) slices_S106496x128_S100000x128_0_0 := by
  show StableHlo.after hostOps4 (W7 m ρ c) (Proc.devRef .tc main_v59) = _
  after_results

/-- The finalize region's output array. -/
theorem w7_v58 (c : Dev nD) :
    W7 m ρ c (Proc.devRef .tc main_v58) = (fun i : S106496x128.Idx =>
      Spec.finS (V6 m ρ c main_v53 i) (V6 m ρ c main_v55 i) (V6 m ρ c main_v57 (ix1 (i 0)))) :=
  (W7_arr m ρ c 3).trans (final3 (V6 m ρ) c)

/-- The summed messages are the reference's. -/
theorem num_eq (c : Dev nD) :
    Host.scatterAdd scatter_S100000x128_S500000x1_S500000x128_1_0_0_1
        (broadcastInDim S100000x128 ![] bcast_S_S100000x128 (constant (F := Ideal) S_ .f32 0x00000000#32))
        (broadcastInDim S500000x1 ![0] bcast_S500000_S500000x1_0 (W5 m ρ c (Proc.devRef .tc main_v11)))
        (extractStridedSlice S500000x128 ![0, 0] (W5 m ρ c (Proc.devRef .tc main_v43_0)) slices_S503808x128_S500000x128_0_0)
      = val_main_v39 (X0 m c) (X1 m c) (X2 m c) (X3 m c) (X4 m c) (X5 m c) := by
  rw [w5_v11, msg_slice]
  rfl

/-- The host's scatter-add at the extended reals is the exact sum: the definition opened one layer, nothing evaluated. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := by
  unfold Host.scatterAdd
  exact Ideal.hostScatterAdd_def d .single x idx upd

/-- The summed weights, slot by slot, are the reference's unit column of summed weights: both scatter-adds are opened to
    their exact sums by rewriting (never by unfolding the sums themselves), and the two sums agree because the
    updates agree edge by edge and land on corresponding slots. -/
theorem den_eq (c : Dev nD) (p : Fin 100000) :
    Host.scatterAdd scatter_S100000_S500000x1_S500000_n_0_0_1
        (broadcastInDim S100000 ![] bcast_S_S100000 (constant (F := Ideal) S_ .f32 0x00000000#32))
        (broadcastInDim S500000x1 ![0] bcast_S500000_S500000x1_0 (W5 m ρ c (Proc.devRef .tc main_v11)))
        (extractStridedSlice S500000 ![0] (W5 m ρ c (Proc.devRef .tc main_v43_1)) slices_S503808_S500000_0) (ix1 p)
      = val_main_v42 (X0 m c) (X1 m c) (X2 m c) (X3 m c) (X4 m c) (X5 m c) (ix2 p (0 : Fin 1)) := by
  rw [w5_v11]
  unfold val_main_v42
  rw [scatterAdd_ideal, scatterAdd_ideal]
  exact ScatterUnit.hostScatterAdd_unit_column (N := 100000) (E := 500000) _ _ rfl rfl rfl rfl rfl rfl rfl rfl _ _
    (fun n => rfl) _ _ _ (fun e => att_slice m ρ c e) p

/-- THE BRIDGE: the kernel's result array is the reference's result stage of the arguments. -/
theorem result_eq (c : Dev nD) :
    W8 m ρ c (Proc.devRef .tc main_v59) = val_main_v48 (X0 m c) (X1 m c) (X2 m c) (X3 m c) (X4 m c) (X5 m c) := by
  rw [w8_v59]
  funext i
  obtain ⟨p, q, rfl⟩ : ∃ (p : Fin 100000) (q : Fin 128), i = ix2 p q := ⟨i 0, i 1, eq_ix2 i⟩
  rw [extractStridedSlice_apply (![0, 0]) _ slices_S106496x128_S100000x128_0_0 (ix2 p q) (ix2 (⟨p.val, by omega⟩ : Fin 106496) q)
    (fun a => by match a with | ⟨0, _⟩ => simp | ⟨1, _⟩ => simp)]
  rw [w7_v58, Cert.ReferenceIdeal.RefSpec.out_eq]
  show Spec.finS (W6 m ρ c (Proc.devRef .tc main_v53) (ix2 (⟨p.val, by omega⟩ : Fin 106496) q))
      (W6 m ρ c (Proc.devRef .tc main_v55) (ix2 (⟨p.val, by omega⟩ : Fin 106496) q))
      (W6 m ρ c (Proc.devRef .tc main_v57) (ix1 (⟨p.val, by omega⟩ : Fin 106496))) = _
  have ht : W6 m ρ c (Proc.devRef .tc main_v53) (ix2 (⟨p.val, by omega⟩ : Fin 106496) q)
      = val_main_v1 (X1 m c) (X4 m c) (ix2 p q) := by
    rw [w6_v53, w5_v7]
    exact concatenate_pair_apply_left (t := S106496x128) (s₁ := S100000x128) (s₂ := S6496x128) (0 : Fin 2) _ zpad
      concatenates_S100000x128_S6496x128_S106496x128_d0 (ix2 (⟨p.val, by omega⟩ : Fin 106496) q) rfl (ix2 p q)
      (fun b => by match b with | ⟨0, _⟩ => rfl | ⟨1, _⟩ => rfl)
  have hn : W6 m ρ c (Proc.devRef .tc main_v55) (ix2 (⟨p.val, by omega⟩ : Fin 106496) q)
      = val_main_v39 (X0 m c) (X1 m c) (X2 m c) (X3 m c) (X4 m c) (X5 m c) (ix2 p q) := by
    rw [w6_v55, num_eq]
    exact concatenate_pair_apply_left (t := S106496x128) (s₁ := S100000x128) (s₂ := S6496x128) (0 : Fin 2) _ zpad
      concatenates_S100000x128_S6496x128_S106496x128_d0 (ix2 (⟨p.val, by omega⟩ : Fin 106496) q) rfl (ix2 p q)
      (fun b => by match b with | ⟨0, _⟩ => rfl | ⟨1, _⟩ => rfl)
  have hd : W6 m ρ c (Proc.devRef .tc main_v57) (ix1 (⟨p.val, by omega⟩ : Fin 106496))
      = val_main_v42 (X0 m c) (X1 m c) (X2 m c) (X3 m c) (X4 m c) (X5 m c) (ix2 p (0 : Fin 1)) := by
    rw [w6_v57]
    refine (concatenate_pair_apply_left (t := S106496) (s₁ := S100000) (s₂ := S6496) (0 : Fin 1) _ zpad1
      concatenates_S100000_S6496_S106496_d0 (ix1 (⟨p.val, by omega⟩ : Fin 106496)) rfl (ix1 p)
      (fun b => by match b with | ⟨0, _⟩ => rfl)).trans ?_
    exact den_eq m ρ c p
  rw [ht, hn, hd]

end Cert.KernelIdeal.HostValue
end
-- ==== Proof.lean ====
/-
  The certificate of the heterogeneous graph attention layer: two feature projections, a per-edge attention weight, a
  weighted scatter-sum of source features and a normalised, rectified combination with the target projection.

  The kernel computes the projections, the per-edge weights and messages, and the final combination in four grid
  regions over zero-padded arrays, with the gathers and scatter-sums between them on the host; the reference computes
  everything on the host.  At the extended reals both are one function of the six arguments:
    s = x_user · Ws,  t = x_item · Wt  (a change of float format is the identity, so the kernel's products are plain);
    the gathers and the index normalisation are the same operations on both sides;
    an edge's score is the lane sum of s2·a_s + t2·a_t, which is the 256-wide product of [s2, t2] with a
      (a sum over 256 positions split into its halves and re-joined lane by lane: commutativity and associativity of +);
    the weights are scattered as a vector by the kernel and as a unit column by the reference: the same sums;
    the padded rows never reach a kept entry: each region works row by row and the last step keeps the first 100000 rows.
  The three frames are the generated ones (the reference's is its generated run with the result dropped), the kernel has
  no sanctioned rewrite to preserve, and the value claim is the bridge between the two runs' named results.
-/
import proofs.«152401_j59854664237757_1_alg».proof.Defs
import proofs.«152401_j59854664237757_1_alg».proof.Proof.Gen.Kernel
import proofs.«152401_j59854664237757_1_alg».proof.Proof.Gen.Kernel.Skeleton
import proofs.«152401_j59854664237757_1_alg».proof.Proof.Gen.Kernel.Launch
import proofs.«152401_j59854664237757_1_alg».proof.Proof.Gen.Kernel.Points
import proofs.«152401_j59854664237757_1_alg».proof.Proof.Gen.Kernel.Frame
import proofs.«152401_j59854664237757_1_alg».proof.Proof.Gen.KernelIdeal
import proofs.«152401_j59854664237757_1_alg».proof.Proof.Gen.KernelIdeal.Skeleton
import proofs.«152401_j59854664237757_1_alg».proof.Proof.Gen.KernelIdeal.Launch
import proofs.«152401_j59854664237757_1_alg».proof.Proof.Gen.KernelIdeal.Points
import proofs.«152401_j59854664237757_1_alg».proof.Proof.Gen.KernelIdeal.Frame
import proofs.«152401_j59854664237757_1_alg».proof.Proof.Gen.ReferenceIdeal
import proofs.«152401_j59854664237757_1_alg».proof.Proof.Gen.ReferenceIdeal.Run
import proofs.«152401_j59854664237757_1_alg».proof.Proof.Gen.ReferenceIdeal.Read
import proofs.«152401_j59854664237757_1_alg».proof.Proof.Gen.Pre_finite_inputs
import proofs.«152401_j59854664237757_1_alg».proof.Proof.RunNamed
import proofs.«152401_j59854664237757_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the same result array: the kernel's run
    names its result at the fold's last contents, the reference's at its composed term, and the bridge joins them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v59), Cert.KernelIdeal.GenRun.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v48 m' c
    = Cert.KernelIdeal.Gen.W8 m ρ c (Proc.devRef .tc Cert.KernelIdeal.main_v59)
  rw [Cert.ReferenceIdeal.Read.val_main_v48_eq,
    (hagree c).1, (hagree c).2.1, (hagree c).2.2.1, (hagree c).2.2.2.1, (hagree c).2.2.2.2.1, (hagree c).2.2.2.2.2]
  exact (Cert.KernelIdeal.HostValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
